-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x1024x42 : Shape := ⟨4, ![1, 1024, 1024, 42]⟩
abbrev S115x128 : Shape := ⟨2, ![115, 128]⟩
abbrev S1x1024 : Shape := ⟨2, ![1, 1024]⟩
abbrev S_ : Shape := ⟨0, ![]⟩

class Facts : Prop where
  bcast_S_S1x1024x1024x42 : S_.BroadcastsInDim S1x1024x1024x42 (![] : Fin 0 → Fin S1x1024x1024x42.rank)
  reducesTo_S1x1024x1024x42_S_d0_1_2_3 : S1x1024x1024x42.ReducesTo [0, 1, 2, 3] S_
  h_S_ : 0 < S_.numel
  bcast_S_S115x128 : S_.BroadcastsInDim S115x128 (![] : Fin 0 → Fin S115x128.rank)
  reducesTo_S115x128_S_d0_1 : S115x128.ReducesTo [0, 1] S_

variable [Facts]

def fn {F : FTy → Type} [FloatOps F] (main_arg0 : FVec F S1x1024x1024x42 .f32) (main_arg1 : FVec F S115x128 .f32) (main_arg2 : IVec S1x1024 32) (main_arg3 : IVec S1x1024 32) (main_arg4 : IVec S1x1024 32) (main_arg5 : IVec S1x1024 32) : IVec S_ 1 :=
  let main_v0 : FVec F S1x1024x1024x42 .f32 := Host.absf main_arg0
  let main_cst : FVec F S_ .f32 := constant S_ .f32 0x7F800000#32
  let main_v1 : FVec F S1x1024x1024x42 .f32 := broadcastInDim S1x1024x1024x42 ![] bcast_S_S1x1024x1024x42 main_cst
  let main_v2 : IVec S1x1024x1024x42 1 := cmpf .olt main_v0 main_v1
  let main_c : IVec S_ 1 := constantI S_ 1 1#1
  let main_v3 : IVec S_ 1 := (fun x v => Host.reduce IntOp.andi x v reducesTo_S1x1024x1024x42_S_d0_1_2_3 h_S_) main_v2 main_c
  let main_v4 : FVec F S115x128 .f32 := Host.absf main_arg1
  let main_cst_0 : FVec F S_ .f32 := constant S_ .f32 0x7F800000#32
  let main_v5 : FVec F S115x128 .f32 := broadcastInDim S115x128 ![] bcast_S_S115x128 main_cst_0
  let main_v6 : IVec S115x128 1 := cmpf .olt main_v4 main_v5
  let main_c_1 : IVec S_ 1 := constantI S_ 1 1#1
  let main_v7 : IVec S_ 1 := (fun x v => Host.reduce IntOp.andi x v reducesTo_S115x128_S_d0_1 h_S_) main_v6 main_c_1
  let main_v8 : IVec S_ 1 := andi main_v3 main_v7
  main_v8
-- ==== Kernel.lean ====
abbrev S1x1024x1024x42 : Shape := ⟨4, ![1, 1024, 1024, 42]⟩
abbrev S115x128 : Shape := ⟨2, ![115, 128]⟩
abbrev S1x1024 : Shape := ⟨2, ![1, 1024]⟩
abbrev S1024 : Shape := ⟨1, ![1024]⟩
abbrev S1024x1 : Shape := ⟨2, ![1024, 1]⟩
abbrev S66x128 : Shape := ⟨2, ![66, 128]⟩
abbrev S42x128 : Shape := ⟨2, ![42, 128]⟩
abbrev S1x128 : Shape := ⟨2, ![1, 128]⟩
abbrev S6x128 : Shape := ⟨2, ![6, 128]⟩
abbrev S1x1024x1024x128 : Shape := ⟨4, ![1, 1024, 1024, 128]⟩
abbrev S64x1 : Shape := ⟨2, ![64, 1]⟩
abbrev S1x64x64x42 : Shape := ⟨4, ![1, 64, 64, 42]⟩
abbrev S1x64x64x128 : Shape := ⟨4, ![1, 64, 64, 128]⟩
abbrev S64 : Shape := ⟨1, ![64]⟩
abbrev S1x64 : Shape := ⟨2, ![1, 64]⟩
abbrev S64x64 : Shape := ⟨2, ![64, 64]⟩
abbrev S64x64x66 : Shape := ⟨3, ![64, 64, 66]⟩
abbrev S64x64x1 : Shape := ⟨3, ![64, 64, 1]⟩
abbrev S4096x66 : Shape := ⟨2, ![4096, 66]⟩
abbrev S4096x128 : Shape := ⟨2, ![4096, 128]⟩
abbrev S64x64x42 : Shape := ⟨3, ![64, 64, 42]⟩
abbrev S4096x42 : Shape := ⟨2, ![4096, 42]⟩
abbrev S64x64x6 : Shape := ⟨3, ![64, 64, 6]⟩
abbrev S4096x6 : Shape := ⟨2, ![4096, 6]⟩
abbrev S128 : Shape := ⟨1, ![128]⟩
abbrev S4096x1 : Shape := ⟨2, ![4096, 1]⟩
abbrev S64x64x128 : Shape := ⟨3, ![64, 64, 128]⟩

abbrev nBuf : Space → Nat
  | .hbm => 19
  | .vmem => 24
  | .smem => 0
  | _ => 0

abbrev bufTy : (tb : Table) → Fin (tcTables nBuf tb) → BufTy
  | .hbm, ⟨0, _⟩ => ⟨S1x1024x1024x42, .f32⟩
  | .hbm, ⟨1, _⟩ => ⟨S115x128, .f32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S1x1024, .i32⟩
  | .hbm, ⟨6, _⟩ => ⟨S1024, .i32⟩
  | .hbm, ⟨7, _⟩ => ⟨S1024x1, .i32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1024x1, .i32⟩
  | .hbm, ⟨14, _⟩ => ⟨S66x128, .f32⟩
  | .hbm, ⟨15, _⟩ => ⟨S42x128, .f32⟩
  | .hbm, ⟨16, _⟩ => ⟨S1x128, .f32⟩
  | .hbm, ⟨17, _⟩ => ⟨S6x128, .f32⟩
  | .hbm, ⟨18, _⟩ => ⟨S1x1024x1024x128, .f32⟩
  | .local _ .vmem, ⟨0, _⟩ => ⟨S64x1, .i32⟩
  | .local _ .vmem, ⟨1, _⟩ => ⟨S64x1, .i32⟩
  | .local _ .vmem, ⟨2, _⟩ => ⟨S64x1, .i32⟩
  | .local _ .vmem, ⟨3, _⟩ => ⟨S64x1, .i32⟩
  | .local _ .vmem, ⟨4, _⟩ => ⟨S64x1, .i32⟩
  | .local _ .vmem, ⟨5, _⟩ => ⟨S64x1, .i32⟩
  | .local _ .vmem, ⟨6, _⟩ => ⟨S64x1, .i32⟩
  | .local _ .vmem, ⟨7, _⟩ => ⟨S64x1, .i32⟩
  | .local _ .vmem, ⟨8, _⟩ => ⟨S64x1, .i32⟩
  | .local _ .vmem, ⟨9, _⟩ => ⟨S64x1, .i32⟩
  | .local _ .vmem, ⟨10, _⟩ => ⟨S64x1, .i32⟩
  | .local _ .vmem, ⟨11, _⟩ => ⟨S64x1, .i32⟩
  | .local _ .vmem, ⟨12, _⟩ => ⟨S64x1, .i32⟩
  | .local _ .vmem, ⟨13, _⟩ => ⟨S64x1, .i32⟩
  | .local _ .vmem, ⟨14, _⟩ => ⟨S64x1, .i32⟩
  | .local _ .vmem, ⟨15, _⟩ => ⟨S64x1, .i32⟩
  | .local _ .vmem, ⟨16, _⟩ => ⟨S1x64x64x42, .f32⟩
  | .local _ .vmem, ⟨17, _⟩ => ⟨S1x64x64x42, .f32⟩
  | .local _ .vmem, ⟨18, _⟩ => ⟨S66x128, .f32⟩
  | .local _ .vmem, ⟨19, _⟩ => ⟨S42x128, .f32⟩
  | .local _ .vmem, ⟨20, _⟩ => ⟨S1x128, .f32⟩
  | .local _ .vmem, ⟨21, _⟩ => ⟨S6x128, .f32⟩
  | .local _ .vmem, ⟨22, _⟩ => ⟨S1x64x64x128, .f32⟩
  | .local _ .vmem, ⟨23, _⟩ => ⟨S1x64x64x128, .f32⟩
  | _, _ => ⟨S1x1024x1024x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x64x64x42 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S66x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S42x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S6x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S1x1024_S1024 : S1x1024.ShapeCasts S1024
  shapeCasts_S1024_S1024x1 : S1024.ShapeCasts S1024x1
  slices_S115x128_S66x128_0_0 : S115x128.Slices ![0, 0] S66x128
  slices_S115x128_S42x128_66_0 : S115x128.Slices ![66, 0] S42x128
  slices_S115x128_S1x128_108_0 : S115x128.Slices ![108, 0] S1x128
  slices_S115x128_S6x128_109_0 : S115x128.Slices ![109, 0] S6x128
  inb_S64x1_S64x1_0_0 : ∀ a, (![0, 0] : Fin 2 → Nat) a + S64x1.size a ≤ S64x1.size a
  h_S64x1 : 0 < S64x1.numel
  shapeCasts_S64x1_S64 : S64x1.ShapeCasts S64
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  iota_S64x64x66_d2_w32 : S64x64x66.Iotas .tc 32 [2]
  shapeCasts_S64x64_S64x64x1 : S64x64.ShapeCasts S64x64x1
  broadcasts_S64x64x1_S64x64x66 : S64x64x1.Broadcasts S64x64x66
  natLt_1_32 : 1 < 32
  bitsLt_bf16_f32 : FTy.bits .bf16 < FTy.bits .f32
  shapeCasts_S64x64x66_S4096x66 : S64x64x66.ShapeCasts S4096x66
  inb_S66x128_S66x128_0_0 : ∀ a, (![0, 0] : Fin 2 → Nat) a + S66x128.size a ≤ S66x128.size a
  h_S66x128 : 0 < S66x128.numel
  shapeCasts_S66x128_S66x128 : S66x128.ShapeCasts S66x128
  inb_S1x64x64x42_S1x64x64x42_0_0_0_0 : ∀ a, (![0, 0, 0, 0] : Fin 4 → Nat) a + S1x64x64x42.size a ≤ S1x64x64x42.size a
  h_S1x64x64x42 : 0 < S1x64x64x42.numel
  shapeCasts_S1x64x64x42_S64x64x42 : S1x64x64x42.ShapeCasts S64x64x42
  shapeCasts_S64x64x42_S4096x42 : S64x64x42.ShapeCasts S4096x42
  inb_S42x128_S42x128_0_0 : ∀ a, (![0, 0] : Fin 2 → Nat) a + S42x128.size a ≤ S42x128.size a
  h_S42x128 : 0 < S42x128.numel
  shapeCasts_S42x128_S42x128 : S42x128.ShapeCasts S42x128
  iota_S64x64x6_d2_w32 : S64x64x6.Iotas .tc 32 [2]
  broadcasts_S64x64x1_S64x64x6 : S64x64x1.Broadcasts S64x64x6
  shapeCasts_S64x64x6_S4096x6 : S64x64x6.ShapeCasts S4096x6
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S64x64_S4096x1 : S64x64.ShapeCasts S4096x1
  shapeCasts_S128_S1x128 : S128.ShapeCasts S1x128
  broadcasts_S4096x1_S4096x128 : S4096x1.Broadcasts S4096x128
  broadcasts_S1x128_S4096x128 : S1x128.Broadcasts S4096x128
  shapeCasts_S4096x128_S64x64x128 : S4096x128.ShapeCasts S64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  shapeCasts_S64x64x128_S1x64x64x128 : S64x64x128.ShapeCasts S1x64x64x128
  dot_S4096x66_S66x128_S4096x128_1_0_0_1_n_n_wf : DotDims.WF S4096x66 S66x128 S4096x128 [1] [0] [0] [1] [] []
  dot_S4096x42_S42x128_S4096x128_1_0_0_1_n_n_wf : DotDims.WF S4096x42 S42x128 S4096x128 [1] [0] [0] [1] [] []
  dot_S4096x6_S6x128_S4096x128_1_0_0_1_n_n_wf : DotDims.WF S4096x6 S6x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S1024x1.size a
  hwx0_0 : ∀ i : grid0.Coords, EltTy.bits .i32 = 32 ∨ (Rect.block (s := S1024x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S1024x1.size a
  hwx0_1 : ∀ i : grid0.Coords, EltTy.bits .i32 = 32 ∨ (Rect.block (s := S1024x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S1024x1.size a
  hwx0_2 : ∀ i : grid0.Coords, EltTy.bits .i32 = 32 ∨ (Rect.block (s := S1024x1) S64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S1024x1.size a
  hwx0_3 : ∀ i : grid0.Coords, EltTy.bits .i32 = 32 ∨ (Rect.block (s := S1024x1) S64x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S1024x1.size a
  hwx0_4 : ∀ i : grid0.Coords, EltTy.bits .i32 = 32 ∨ (Rect.block (s := S1024x1) S64x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S1024x1.size a
  hwx0_5 : ∀ i : grid0.Coords, EltTy.bits .i32 = 32 ∨ (Rect.block (s := S1024x1) S64x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S1024x1.size a
  hwx0_6 : ∀ i : grid0.Coords, EltTy.bits .i32 = 32 ∨ (Rect.block (s := S1024x1) S64x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S1024x1.size a
  hwx0_7 : ∀ i : grid0.Coords, EltTy.bits .i32 = 32 ∨ (Rect.block (s := S1024x1) S64x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64x42.size a ≤ S1x1024x1024x42.size a
  hwx0_8 : ∀ i : grid0.Coords, EltTy.bits .f32 = 32 ∨ (Rect.block (s := S1x1024x1024x42) S1x64x64x42.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S66x128.size a ≤ S66x128.size a
  hwx0_9 : ∀ i : grid0.Coords, EltTy.bits .f32 = 32 ∨ (Rect.block (s := S66x128) S66x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S42x128.size a ≤ S42x128.size a
  hwx0_10 : ∀ i : grid0.Coords, EltTy.bits .f32 = 32 ∨ (Rect.block (s := S42x128) S42x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6x128.size a ≤ S6x128.size a
  hwx0_12 : ∀ i : grid0.Coords, EltTy.bits .f32 = 32 ∨ (Rect.block (s := S6x128) S6x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x64x64x128.size a ≤ S1x1024x1024x128.size a
  hwx0_13 : ∀ i : grid0.Coords, EltTy.bits .f32 = 32 ∨ (Rect.block (s := S1x1024x1024x128) S1x64x64x128.size (cc0_transform_13 i) (hinb0_13 i)).WholeWords (EltTy.packing .f32)

variable [Facts₀]

def dot_S4096x66_S66x128_S4096x128_1_0_0_1_n_n : DotDims S4096x66 S66x128 S4096x128 where
  lhsContracting := [1]
  rhsContracting := [0]
  lhsNonContracting := [0]
  rhsNonContracting := [1]
  lhsBatch := []
  rhsBatch := []
  wf := dot_S4096x66_S66x128_S4096x128_1_0_0_1_n_n_wf
def dot_S4096x42_S42x128_S4096x128_1_0_0_1_n_n : DotDims S4096x42 S42x128 S4096x128 where
  lhsContracting := [1]
  rhsContracting := [0]
  lhsNonContracting := [0]
  rhsNonContracting := [1]
  lhsBatch := []
  rhsBatch := []
  wf := dot_S4096x42_S42x128_S4096x128_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf

abbrev win0_0 : Pipeline.Window sig grid0 :=
  Pipeline.Window.ofSpec (Memref.whole main_v1) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg0) S1x64x64x42.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S66x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S42x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S6x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x64x64x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1x1024x1024x42 : Shape := ⟨4, ![1, 1024, 1024, 42]⟩
abbrev S115x128 : Shape := ⟨2, ![115, 128]⟩
abbrev S1x1024 : Shape := ⟨2, ![1, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1x1024x1024x1 : Shape := ⟨4, ![1, 1024, 1024, 1]⟩
abbrev S1x1x1x66 : Shape := ⟨4, ![1, 1, 1, 66]⟩
abbrev S1x1024x1024x66 : Shape := ⟨4, ![1, 1024, 1024, 66]⟩
abbrev S1x1x1x6 : Shape := ⟨4, ![1, 1, 1, 6]⟩
abbrev S1x1024x1024x6 : Shape := ⟨4, ![1, 1024, 1024, 6]⟩
abbrev S1x1024x1024x115 : Shape := ⟨4, ![1, 1024, 1024, 115]⟩
abbrev S1x1024x1024x128 : Shape := ⟨4, ![1, 1024, 1024, 128]⟩

abbrev nBuf : Space → Nat
  | .hbm => 74
  | .vmem => 0
  | .smem => 0
  | _ => 0

abbrev bufTy : (tb : Table) → Fin (tcTables nBuf tb) → BufTy
  | .hbm, ⟨0, _⟩ => ⟨S1x1024x1024x42, .f32⟩
  | .hbm, ⟨1, _⟩ => ⟨S115x128, .f32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S1x1024, .i32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i32⟩
  | .hbm, ⟨21, _⟩ => ⟨S_, .i32⟩
  | .hbm, ⟨22, _⟩ => ⟨S1x1024x1024, .i32⟩
  | .hbm, ⟨23, _⟩ => ⟨S1x1024x1024, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x1024x1024, .i32⟩
  | .hbm, ⟨28, _⟩ => ⟨S1x1024x1024, .i32⟩
  | .hbm, ⟨29, _⟩ => ⟨S_, .i32⟩
  | .hbm, ⟨30, _⟩ => ⟨S1x1024x1024, .i32⟩
  | .hbm, ⟨31, _⟩ => ⟨S1x1024x1024, .i32⟩
  | .hbm, ⟨32, _⟩ => ⟨S_, .i32⟩
  | .hbm, ⟨33, _⟩ => ⟨S_, .i32⟩
  | .hbm, ⟨34, _⟩ => ⟨S1x1024x1024, .i32⟩
  | .hbm, ⟨35, _⟩ => ⟨S1x1024x1024, .i32⟩
  | .hbm, ⟨36, _⟩ => ⟨S1x1024x1024x1, .i32⟩
  | .hbm, ⟨37, _⟩ => ⟨S1x1x1x66, .i32⟩
  | .hbm, ⟨38, _⟩ => ⟨S1x1024x1024x66, .i32⟩
  | .hbm, ⟨39, _⟩ => ⟨S1x1024x1024x66, .i32⟩
  | .hbm, ⟨40, _⟩ => ⟨S1x1024x1024x66, .i1⟩
  | .hbm, ⟨41, _⟩ => ⟨S1x1024x1024x66, .f32⟩
  | .hbm, ⟨42, _⟩ => ⟨S1x1024x1, .i32⟩
  | .hbm, ⟨43, _⟩ => ⟨S1x1x1024, .i32⟩
  | .hbm, ⟨44, _⟩ => ⟨S1x1024x1024, .i32⟩
  | .hbm, ⟨45, _⟩ => ⟨S1x1024x1024, .i32⟩
  | .hbm, ⟨46, _⟩ => ⟨S1x1024x1024, .i32⟩
  | .hbm, ⟨47, _⟩ => ⟨S_, .i32⟩
  | .hbm, ⟨48, _⟩ => ⟨S1x1024x1024, .i32⟩
  | .hbm, ⟨49, _⟩ => ⟨S1x1024x1024, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024x1024, .i32⟩
  | .hbm, ⟨54, _⟩ => ⟨S1x1024x1024, .i32⟩
  | .hbm, ⟨55, _⟩ => ⟨S_, .i32⟩
  | .hbm, ⟨56, _⟩ => ⟨S1x1024x1024, .i32⟩
  | .hbm, ⟨57, _⟩ => ⟨S1x1024x1024, .i32⟩
  | .hbm, ⟨58, _⟩ => ⟨S1x1024x1024, .i1⟩
  | .hbm, ⟨59, _⟩ => ⟨S1x1024x1024, .i1⟩
  | .hbm, ⟨60, _⟩ => ⟨S_, .i32⟩
  | .hbm, ⟨61, _⟩ => ⟨S_, .i32⟩
  | .hbm, ⟨62, _⟩ => ⟨S1x1024x1024, .i32⟩
  | .hbm, ⟨63, _⟩ => ⟨S1x1024x1024, .i32⟩
  | .hbm, ⟨64, _⟩ => ⟨S1x1024x1024x1, .i32⟩
  | .hbm, ⟨65, _⟩ => ⟨S1x1x1x6, .i32⟩
  | .hbm, ⟨66, _⟩ => ⟨S1x1024x1024x6, .i32⟩
  | .hbm, ⟨67, _⟩ => ⟨S1x1024x1024x6, .i32⟩
  | .hbm, ⟨68, _⟩ => ⟨S1x1024x1024x6, .i1⟩
  | .hbm, ⟨69, _⟩ => ⟨S1x1024x1024x6, .f32⟩
  | .hbm, ⟨70, _⟩ => ⟨S1x1024x1024x1, .i1⟩
  | .hbm, ⟨71, _⟩ => ⟨S1x1024x1024x1, .f32⟩
  | .hbm, ⟨72, _⟩ => ⟨S1x1024x1024x115, .f32⟩
  | .hbm, ⟨73, _⟩ => ⟨S1x1024x1024x128, .f32⟩
  | _, _ => ⟨S1x1024x1024x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_c_5 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_call4_v0 : Ref sig .tc := ⟨.hbm, 61, rfl⟩
abbrev main_call4_v1 : Ref sig .tc := ⟨.hbm, 62, rfl⟩
abbrev main_v30 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  bcast_S1x1024x1024x1_S1x1024x1024x66_0_1_2_3 : S1x1024x1024x1.BroadcastsInDim S1x1024x1024x66 (![0, 1, 2, 3] : Fin 4 → Fin S1x1024x1024x66.rank)
  bcast_S1x1x1x66_S1x1024x1024x66_0_1_2_3 : S1x1x1x66.BroadcastsInDim S1x1024x1024x66 (![0, 1, 2, 3] : Fin 4 → Fin S1x1024x1024x66.rank)
  bcast_S1x1024x1024x1_S1x1024x1024x6_0_1_2_3 : S1x1024x1024x1.BroadcastsInDim S1x1024x1024x6 (![0, 1, 2, 3] : Fin 4 → Fin S1x1024x1024x6.rank)
  bcast_S1x1x1x6_S1x1024x1024x6_0_1_2_3 : S1x1x1x6.BroadcastsInDim S1x1024x1024x6 (![0, 1, 2, 3] : Fin 4 → Fin S1x1024x1024x6.rank)
  concatenates_S1x1024x1024x66_S1x1024x1024x42_S1x1024x1024x1_S1x1024x1024x6_S1x1024x1024x115_d3 : Shape.Concatenates [S1x1024x1024x66, S1x1024x1024x42, S1x1024x1024x1, S1x1024x1024x6] S1x1024x1024x115 3
  dot_S1x1024x1024x115_S115x128_S1x1024x1024x128_3_0_012_1_n_n_wf : DotDims.WF S1x1024x1024x115 S115x128 S1x1024x1024x128 [3] [0] [0, 1, 2] [1] [] []

variable [Facts₀]

def dot_S1x1024x1024x115_S115x128_S1x1024x1024x128_3_0_012_1_n_n : DotDims S1x1024x1024x115 S115x128 S1x1024x1024x128 where
  lhsContracting := [3]
  rhsContracting := [0]
  lhsNonContracting := [0, 1, 2]
  rhsNonContracting := [1]
  lhsBatch := []
  rhsBatch := []
  wf := dot_S1x1024x1024x115_S115x128_S1x1024x1024x128_3_0_012_1_n_n_wf

class Facts : Prop extends Facts₀ where

variable [Facts]
-- ==== Proof.KernelBody.lean ====
/-
  What the kernel body does at one grid point, as a triple: on whole staging buffers holding the thirteen
  input blocks (the query-side and key-side id columns, the pairwise feature block and the four row
  slices of the weight matrix), it terminates holding them as they were and the output block's buffer at
  the one store's value: the sum of three small matrix products (position one-hot, pairwise features,
  chain one-hot) plus the same-entity indicator times its weight row, as a function of the loaded blocks.
-/
import proofs.«102805_j43044162241209_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and the store is of a whole buffer -/

abbrev r64x1 : Rect S64x1 := Rect.unit (s := S64x1) ![0, 0] S64x1.size inb_S64x1_S64x1_0_0
abbrev rTok : Rect S1x64x64x42 := Rect.unit (s := S1x64x64x42) ![0, 0, 0, 0] S1x64x64x42.size inb_S1x64x64x42_S1x64x64x42_0_0_0_0
abbrev rWpos : Rect S66x128 := Rect.unit (s := S66x128) ![0, 0] S66x128.size inb_S66x128_S66x128_0_0
abbrev rWtok : Rect S42x128 := Rect.unit (s := S42x128) ![0, 0] S42x128.size inb_S42x128_S42x128_0_0
abbrev rWent : Rect S1x128 := Rect.unit (s := S1x128) ![0, 0] S1x128.size inb_S1x128_S1x128_0_0
abbrev rWch : Rect S6x128 := Rect.unit (s := S6x128) ![0, 0] S6x128.size inb_S6x128_S6x128_0_0
abbrev rOut : Rect S1x64x64x128 := Rect.unit (s := S1x64x64x128) ![0, 0, 0, 0] S1x64x64x128.size inb_S1x64x64x128_S1x64x64x128_0_0_0_0

/-! ## What the body leaves in the output block's buffer -/

/-- The output block after the body, from the thirteen input blocks: its one store, of the whole block. -/
def outBlk (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) : Vec F S1x64x64x128 .f32 :=
  View.canon [⟨rOut, k0_pay1 (k0_pay5 (View.ld x2 r64x1) (View.ld x6 r64x1)) (k0_pay8 (k0_pay4 (View.ld x0 r64x1) (View.ld x4 r64x1)) (k0_pay6 (View.ld x3 r64x1) (View.ld x7 r64x1)) k0_pay7 (View.ld x9 rWpos) (View.ld x8 rTok) (View.ld x10 rWtok)) (k0_pay9 (F := F) (k0_pay2 (View.ld x1 r64x1)) (k0_pay3 (View.ld x5 r64x1)) (k0_pay4 (View.ld x0 r64x1) (View.ld x4 r64x1)) (k0_pay5 (View.ld x2 r64x1) (View.ld x6 r64x1))) (View.ld x12 rWch) (View.ld x11 rWent)⟩]

/-- The one store covers the buffer. -/
theorem outCover (p0 : Vec F S1x64x64x128 .f32) (y : S1x64x64x128.Idx) :
    ∃ pc ∈ ([⟨rOut, p0⟩] : List (View.Piece (Elt F) S1x64x64x128 .f32)), y ∈ pc.1.set :=
  View.cover_of_tiled [⟨rOut, p0⟩] S1x64x64x128.size (by rfl) y

/-! ## The body's triple -/

set_option maxHeartbeats 4000000 in
/-- The kernel body on whole staging memrefs, the inputs' at read contents `x0 … x12` and the output's at anything,
    runs to the continuation holding the inputs' as they were and the output's at `outBlk` of the inputs'. -/
theorem sound_kernel (c : Dev nD) (E : Set ℕ) (i : grid0.Coords) (arg2 : Memref sig .tc .vmem S64x1 .i32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x1 .i32) (harg5 : arg5.IsWhole) (arg6 : Memref sig .tc .vmem S64x1 .i32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .i32) (harg9 : arg9.IsWhole) (arg10 : Memref sig .tc .vmem S1x64x64x42 .f32) (harg10 : arg10.IsWhole) (arg11 : Memref sig .tc .vmem S66x128 .f32) (harg11 : arg11.IsWhole) (arg12 : Memref sig .tc .vmem S42x128 .f32) (harg12 : arg12.IsWhole) (arg13 : Memref sig .tc .vmem S1x128 .f32) (harg13 : arg13.IsWhole) (arg14 : Memref sig .tc .vmem S6x128 .f32) (harg14 : arg14.IsWhole) (arg15 : Memref sig .tc .vmem S1x64x64x128 .f32) (harg15 : arg15.IsWhole)
    (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outBlk x0 x1 x2 x3 x4 x5 x6 x7 x8 x9 x10 x11 x12)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (outCover _)

end Cert.Kernel.Frm

end
-- ==== Proof.LibSharedLaunch.lean ====
/-
  A frame run for a one-region pipeline whose INPUT windows may share arrays.

  The pipeline library's frame run hands every window its array whole, which needs the windows' arrays
  pairwise distinct. When one array is read through several input windows (each at its own block), the
  array's full share has to be dealt among those windows; how, is the proof data's business (its `q`).
  This module states the frame run with that dealing as a hypothesis (`hsplit`): from the distinct buffers
  behind the windows' arrays, each whole at the region-entry contents, to the proof data's `arrays`.
  The region invariant is the core's scoped rest alone (the generator register is let go at launch), so
  it serves a body that draws nothing from the generator.
-/
import Idealize.ShloMosaic.Lib.Pipeline.Frame

noncomputable section

namespace Idealize.ShloMosaic.Pipeline.SharedArrays

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a one-region program whose windows may share arrays: every weakly fair execution of
    @main terminates, and in the final state every window's array holds what the library computes from the
    proof data (`Dat.arrAt … N`) and every unscoped buffer that is no window's array what it held at the
    region's entry. `hsplit` deals the buffers behind the arrays among the windows; the invariant is entered
    from the scoped rest (`hin`) and gives it back (`hout`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.SharedArrays

end
-- ==== Proof.KernelFrame.lean ====
/-
  The frame of the program: @main's twelve host operations (four reshapes of each id vector to a column, four
  row slices of the weight matrix), then the one pipelined region over the 16 x 16 grid of 64 x 64 tiles.
  Each id column is read through TWO input windows (its query-side block by the tile's row, its key-side
  block by the tile's column), so the column's buffer is dealt half to each; every other array has one window.
  At every grid point each input window's buffer holds its block of the array as the region found it, and the
  body leaves the output tile's buffer at its one store's value; the run ends with the result array at the
  tiles written back and every other array as the region found it.
-/
import proofs.«102805_j43044162241209_1_alg».proof.Proof.Gen.Kernel.Launch
import proofs.«102805_j43044162241209_1_alg».proof.Proof.Gen.Kernel.Points
import proofs.«102805_j43044162241209_1_alg».proof.Proof.KernelBody
import proofs.«102805_j43044162241209_1_alg».proof.Proof.LibSharedLaunch

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the twelve host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not: unfetched, the block index has
    not moved (the windows are uncut and never idle). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and the
    output's at the store's value of the input blocks; the invariant the core's scoped rest (the kernel has no
    scratch); the id columns dealt half to the query-side window and half to the key-side one; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.left
    | ⟨3, _⟩ => fullShare.left
    | ⟨4, _⟩ => fullShare.right
    | ⟨5, _⟩ => fullShare.right
    | ⟨6, _⟩ => fullShare.right
    | ⟨7, _⟩ => fullShare.right
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The arrays dealt among the windows -/

theorem share_0 (c : Dev nD) : (dats m 0 c).share 0 = fullShare.left := rfl
theorem share_1 (c : Dev nD) : (dats m 0 c).share 1 = fullShare.left := rfl
theorem share_2 (c : Dev nD) : (dats m 0 c).share 2 = fullShare.left := rfl
theorem share_3 (c : Dev nD) : (dats m 0 c).share 3 = fullShare.left := rfl
theorem share_4 (c : Dev nD) : (dats m 0 c).share 4 = fullShare.right := rfl
theorem share_5 (c : Dev nD) : (dats m 0 c).share 5 = fullShare.right := rfl
theorem share_6 (c : Dev nD) : (dats m 0 c).share 6 = fullShare.right := rfl
theorem share_7 (c : Dev nD) : (dats m 0 c).share 7 = fullShare.right := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl
theorem share_12 (c : Dev nD) : (dats m 0 c).share 12 = fullShare := rfl
theorem share_13 (c : Dev nD) : (dats m 0 c).share 13 = fullShare := rfl

/-- The ten distinct buffers behind the fourteen windows' arrays. -/
theorem arrRefs_eq : Finset.univ.image (Pipeline.arrRef spec0)
    = [main_v1, main_v3, main_v5, main_v7, main_arg0, main_v8, main_v9, main_v10, main_v11, main_v12].toFinset := by decide

/-- Those buffers one by one, each whole at the region-entry contents. -/
theorem arrBufs_eq (c : Dev nD) : (Pipeline.arrBufs spec0 c (V m c) : sProp 𝕄)
    = iprop((((c.tc : Thread nD τ).loc main_v1) ↦{fullShare} V m c main_v1) ∗ (((c.tc : Thread nD τ).loc main_v3) ↦{fullShare} V m c main_v3)
      ∗ (((c.tc : Thread nD τ).loc main_v5) ↦{fullShare} V m c main_v5) ∗ (((c.tc : Thread nD τ).loc main_v7) ↦{fullShare} V m c main_v7)
      ∗ (((c.tc : Thread nD τ).loc main_arg0) ↦{fullShare} V m c main_arg0) ∗ (((c.tc : Thread nD τ).loc main_v8) ↦{fullShare} V m c main_v8)
      ∗ (((c.tc : Thread nD τ).loc main_v9) ↦{fullShare} V m c main_v9) ∗ (((c.tc : Thread nD τ).loc main_v10) ↦{fullShare} V m c main_v10)
      ∗ (((c.tc : Thread nD τ).loc main_v11) ↦{fullShare} V m c main_v11) ∗ (((c.tc : Thread nD τ).loc main_v12) ↦{fullShare} V m c main_v12)) := by
  unfold Pipeline.arrBufs
  rw [bigSep_eq_bigSepL_of_eq _ arrRefs_eq (by decide)]
  rfl

/-- The proof data's arrays, window by window, each at its share of the buffer behind it. -/
theorem arrays_eq (c : Dev nD) : (dats m 0 c).arrays ((dats m 0 c).arrAt · 0)
    = bigSep Finset.univ fun w : Fin 14 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- From the buffers behind the arrays, each whole at the region-entry contents, to the windows' arrays: an id
    column's buffer is cut into its two half shares, one for the query-side window and one for the key-side one. -/
theorem hsplit (c : Dev nD) : (Pipeline.arrBufs spec0 c (V m c) : sProp 𝕄) ⊢ (dats m 0 c).arrays ((dats m 0 c).arrAt · 0) := by
  rw [arrays_eq, bigSep_W0]
  rw [arrBufs_eq]
  simp only [share_0, share_1, share_2, share_3, share_4, share_5, share_6, share_7, share_8, share_9, share_10, share_11, share_12, share_13]
  iintro ⟨H1, H3, H5, H7, Ha, H8, H9, H10, H11, H12⟩
  ihave S1 := (pointsTo_share (PosShare.mem_left_op_right fullShare)).1 $$ H1
  icases S1 with ⟨H1l, H1r⟩
  ihave S3 := (pointsTo_share (PosShare.mem_left_op_right fullShare)).1 $$ H3
  icases S3 with ⟨H3l, H3r⟩
  ihave S5 := (pointsTo_share (PosShare.mem_left_op_right fullShare)).1 $$ H5
  icases S5 with ⟨H5l, H5r⟩
  ihave S7 := (pointsTo_share (PosShare.mem_left_op_right fullShare)).1 $$ H7
  icases S7 with ⟨H7l, H7r⟩
  isplitl [H1l]; · iexact H1l
  isplitl [H3l]; · iexact H3l
  isplitl [H5l]; · iexact H5l
  isplitl [H7l]; · iexact H7l
  isplitl [H1r]; · iexact H1r
  isplitl [H3r]; · iexact H3r
  isplitl [H5r]; · iexact H5r
  isplitl [H7r]; · iexact H7r
  isplitl [Ha]; · iexact Ha
  isplitl [H8]; · iexact H8
  isplitl [H9]; · iexact H9
  isplitl [H10]; · iexact H10
  isplitl [H11]; · iexact H11
  iexact H12

/-! ## The run and the frame -/

set_option backward.isDefEq.respectTransparency.types false in
/-- Every weakly fair execution of @main terminates; in the final state every window's array is what the library
    computes from the proof data and every other unscoped buffer is as the region found it. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ => .rfl) (fun _ => .rfl)

/-- After the run the pairwise-feature argument is as launched: its one input window never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 8).trans (((dats m 0 c).arrAt_in 8 rfl _).trans ((A_eq m c 8).trans (V_main_arg0 m c)))

/-- After the run argument 1 is as launched: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 rfl (by decide))).trans (V_main_arg1 m c)

/-- After the run argument 2 is as launched: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 rfl (by decide))).trans (V_main_arg2 m c)

/-- After the run argument 3 is as launched: no window stages it and no host operation writes it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 rfl (by decide))).trans (V_main_arg3 m c)

/-- After the run argument 4 is as launched: no window stages it and no host operation writes it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 rfl (by decide))).trans (V_main_arg4 m c)

/-- After the run argument 5 is as launched: no window stages it and no host operation writes it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 rfl (by decide))).trans (V_main_arg5 m c)

/-- The run with the result array named and the arguments unchanged. -/
theorem run_blocks : θ_run defs (onTc (τ := τ) (main (F := F))) ⟨m, fun _ => 0, ρ⟩ fun r => ∀ c : Dev nD,
      r.2.mem ((c : Thread nD τ).loc main_v12) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 13, kept_main_arg0 m r h c, kept_main_arg1 m r h c, kept_main_arg2 m r h c,
      kept_main_arg3 m r h c, kept_main_arg4 m r h c, kept_main_arg5 m r h c⟩)
    (run_main m ρ)

/-- The frame: the program runs to the end, faults nowhere and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_blocks m ρ)

end Cert.Kernel.Frm

end
-- ==== Proof.KernelIdealBody.lean ====
/-
  What the kernel body does at one grid point, as a triple: on whole staging buffers holding the thirteen
  input blocks (the query-side and key-side id columns, the pairwise feature block and the four row
  slices of the weight matrix), it terminates holding them as they were and the output block's buffer at
  the one store's value: the sum of three small matrix products (position one-hot, pairwise features,
  chain one-hot) plus the same-entity indicator times its weight row, as a function of the loaded blocks.
-/
import proofs.«102805_j43044162241209_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and the store is of a whole buffer -/

abbrev r64x1 : Rect S64x1 := Rect.unit (s := S64x1) ![0, 0] S64x1.size inb_S64x1_S64x1_0_0
abbrev rTok : Rect S1x64x64x42 := Rect.unit (s := S1x64x64x42) ![0, 0, 0, 0] S1x64x64x42.size inb_S1x64x64x42_S1x64x64x42_0_0_0_0
abbrev rWpos : Rect S66x128 := Rect.unit (s := S66x128) ![0, 0] S66x128.size inb_S66x128_S66x128_0_0
abbrev rWtok : Rect S42x128 := Rect.unit (s := S42x128) ![0, 0] S42x128.size inb_S42x128_S42x128_0_0
abbrev rWent : Rect S1x128 := Rect.unit (s := S1x128) ![0, 0] S1x128.size inb_S1x128_S1x128_0_0
abbrev rWch : Rect S6x128 := Rect.unit (s := S6x128) ![0, 0] S6x128.size inb_S6x128_S6x128_0_0
abbrev rOut : Rect S1x64x64x128 := Rect.unit (s := S1x64x64x128) ![0, 0, 0, 0] S1x64x64x128.size inb_S1x64x64x128_S1x64x64x128_0_0_0_0

/-! ## What the body leaves in the output block's buffer -/

/-- The output block after the body, from the thirteen input blocks: its one store, of the whole block. -/
def outBlk (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) : Vec F S1x64x64x128 .f32 :=
  View.canon [⟨rOut, k0_pay1 (k0_pay5 (View.ld x2 r64x1) (View.ld x6 r64x1)) (k0_pay8 (k0_pay4 (View.ld x0 r64x1) (View.ld x4 r64x1)) (k0_pay6 (View.ld x3 r64x1) (View.ld x7 r64x1)) k0_pay7 (View.ld x9 rWpos) (View.ld x8 rTok) (View.ld x10 rWtok)) (k0_pay9 (F := F) (k0_pay2 (View.ld x1 r64x1)) (k0_pay3 (View.ld x5 r64x1)) (k0_pay4 (View.ld x0 r64x1) (View.ld x4 r64x1)) (k0_pay5 (View.ld x2 r64x1) (View.ld x6 r64x1))) (View.ld x12 rWch) (View.ld x11 rWent)⟩]

/-- The one store covers the buffer. -/
theorem outCover (p0 : Vec F S1x64x64x128 .f32) (y : S1x64x64x128.Idx) :
    ∃ pc ∈ ([⟨rOut, p0⟩] : List (View.Piece (Elt F) S1x64x64x128 .f32)), y ∈ pc.1.set :=
  View.cover_of_tiled [⟨rOut, p0⟩] S1x64x64x128.size (by rfl) y

/-! ## The body's triple -/

set_option maxHeartbeats 4000000 in
/-- The kernel body on whole staging memrefs, the inputs' at read contents `x0 … x12` and the output's at anything,
    runs to the continuation holding the inputs' as they were and the output's at `outBlk` of the inputs'. -/
theorem sound_kernel (c : Dev nD) (E : Set ℕ) (i : grid0.Coords) (arg2 : Memref sig .tc .vmem S64x1 .i32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x1 .i32) (harg5 : arg5.IsWhole) (arg6 : Memref sig .tc .vmem S64x1 .i32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .i32) (harg9 : arg9.IsWhole) (arg10 : Memref sig .tc .vmem S1x64x64x42 .f32) (harg10 : arg10.IsWhole) (arg11 : Memref sig .tc .vmem S66x128 .f32) (harg11 : arg11.IsWhole) (arg12 : Memref sig .tc .vmem S42x128 .f32) (harg12 : arg12.IsWhole) (arg13 : Memref sig .tc .vmem S1x128 .f32) (harg13 : arg13.IsWhole) (arg14 : Memref sig .tc .vmem S6x128 .f32) (harg14 : arg14.IsWhole) (arg15 : Memref sig .tc .vmem S1x64x64x128 .f32) (harg15 : arg15.IsWhole)
    (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outBlk x0 x1 x2 x3 x4 x5 x6 x7 x8 x9 x10 x11 x12)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (outCover _)

end Cert.KernelIdeal.Frm

end
-- ==== Proof.KernelIdealFrame.lean ====
/-
  The frame of the program: @main's twelve host operations (four reshapes of each id vector to a column, four
  row slices of the weight matrix), then the one pipelined region over the 16 x 16 grid of 64 x 64 tiles.
  Each id column is read through TWO input windows (its query-side block by the tile's row, its key-side
  block by the tile's column), so the column's buffer is dealt half to each; every other array has one window.
  At every grid point each input window's buffer holds its block of the array as the region found it, and the
  body leaves the output tile's buffer at its one store's value; the run ends with the result array at the
  tiles written back and every other array as the region found it.
-/
import proofs.«102805_j43044162241209_1_alg».proof.Proof.Gen.KernelIdeal.Launch
import proofs.«102805_j43044162241209_1_alg».proof.Proof.Gen.KernelIdeal.Points
import proofs.«102805_j43044162241209_1_alg».proof.Proof.KernelIdealBody
import proofs.«102805_j43044162241209_1_alg».proof.Proof.LibSharedLaunch

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the twelve host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not: unfetched, the block index has
    not moved (the windows are uncut and never idle). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body at point `t` each input's buffer at its block and the
    output's at the store's value of the input blocks; the invariant the core's scoped rest (the kernel has no
    scratch); the id columns dealt half to the query-side window and half to the key-side one; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.left
    | ⟨3, _⟩ => fullShare.left
    | ⟨4, _⟩ => fullShare.right
    | ⟨5, _⟩ => fullShare.right
    | ⟨6, _⟩ => fullShare.right
    | ⟨7, _⟩ => fullShare.right
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The arrays dealt among the windows -/

theorem share_0 (c : Dev nD) : (dats m 0 c).share 0 = fullShare.left := rfl
theorem share_1 (c : Dev nD) : (dats m 0 c).share 1 = fullShare.left := rfl
theorem share_2 (c : Dev nD) : (dats m 0 c).share 2 = fullShare.left := rfl
theorem share_3 (c : Dev nD) : (dats m 0 c).share 3 = fullShare.left := rfl
theorem share_4 (c : Dev nD) : (dats m 0 c).share 4 = fullShare.right := rfl
theorem share_5 (c : Dev nD) : (dats m 0 c).share 5 = fullShare.right := rfl
theorem share_6 (c : Dev nD) : (dats m 0 c).share 6 = fullShare.right := rfl
theorem share_7 (c : Dev nD) : (dats m 0 c).share 7 = fullShare.right := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl
theorem share_12 (c : Dev nD) : (dats m 0 c).share 12 = fullShare := rfl
theorem share_13 (c : Dev nD) : (dats m 0 c).share 13 = fullShare := rfl

/-- The ten distinct buffers behind the fourteen windows' arrays. -/
theorem arrRefs_eq : Finset.univ.image (Pipeline.arrRef spec0)
    = [main_v1, main_v3, main_v5, main_v7, main_arg0, main_v8, main_v9, main_v10, main_v11, main_v12].toFinset := by decide

/-- Those buffers one by one, each whole at the region-entry contents. -/
theorem arrBufs_eq (c : Dev nD) : (Pipeline.arrBufs spec0 c (V m c) : sProp 𝕄)
    = iprop((((c.tc : Thread nD τ).loc main_v1) ↦{fullShare} V m c main_v1) ∗ (((c.tc : Thread nD τ).loc main_v3) ↦{fullShare} V m c main_v3)
      ∗ (((c.tc : Thread nD τ).loc main_v5) ↦{fullShare} V m c main_v5) ∗ (((c.tc : Thread nD τ).loc main_v7) ↦{fullShare} V m c main_v7)
      ∗ (((c.tc : Thread nD τ).loc main_arg0) ↦{fullShare} V m c main_arg0) ∗ (((c.tc : Thread nD τ).loc main_v8) ↦{fullShare} V m c main_v8)
      ∗ (((c.tc : Thread nD τ).loc main_v9) ↦{fullShare} V m c main_v9) ∗ (((c.tc : Thread nD τ).loc main_v10) ↦{fullShare} V m c main_v10)
      ∗ (((c.tc : Thread nD τ).loc main_v11) ↦{fullShare} V m c main_v11) ∗ (((c.tc : Thread nD τ).loc main_v12) ↦{fullShare} V m c main_v12)) := by
  unfold Pipeline.arrBufs
  rw [bigSep_eq_bigSepL_of_eq _ arrRefs_eq (by decide)]
  rfl

/-- The proof data's arrays, window by window, each at its share of the buffer behind it. -/
theorem arrays_eq (c : Dev nD) : (dats m 0 c).arrays ((dats m 0 c).arrAt · 0)
    = bigSep Finset.univ fun w : Fin 14 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- From the buffers behind the arrays, each whole at the region-entry contents, to the windows' arrays: an id
    column's buffer is cut into its two half shares, one for the query-side window and one for the key-side one. -/
theorem hsplit (c : Dev nD) : (Pipeline.arrBufs spec0 c (V m c) : sProp 𝕄) ⊢ (dats m 0 c).arrays ((dats m 0 c).arrAt · 0) := by
  rw [arrays_eq, bigSep_W0]
  rw [arrBufs_eq]
  simp only [share_0, share_1, share_2, share_3, share_4, share_5, share_6, share_7, share_8, share_9, share_10, share_11, share_12, share_13]
  iintro ⟨H1, H3, H5, H7, Ha, H8, H9, H10, H11, H12⟩
  ihave S1 := (pointsTo_share (PosShare.mem_left_op_right fullShare)).1 $$ H1
  icases S1 with ⟨H1l, H1r⟩
  ihave S3 := (pointsTo_share (PosShare.mem_left_op_right fullShare)).1 $$ H3
  icases S3 with ⟨H3l, H3r⟩
  ihave S5 := (pointsTo_share (PosShare.mem_left_op_right fullShare)).1 $$ H5
  icases S5 with ⟨H5l, H5r⟩
  ihave S7 := (pointsTo_share (PosShare.mem_left_op_right fullShare)).1 $$ H7
  icases S7 with ⟨H7l, H7r⟩
  isplitl [H1l]; · iexact H1l
  isplitl [H3l]; · iexact H3l
  isplitl [H5l]; · iexact H5l
  isplitl [H7l]; · iexact H7l
  isplitl [H1r]; · iexact H1r
  isplitl [H3r]; · iexact H3r
  isplitl [H5r]; · iexact H5r
  isplitl [H7r]; · iexact H7r
  isplitl [Ha]; · iexact Ha
  isplitl [H8]; · iexact H8
  isplitl [H9]; · iexact H9
  isplitl [H10]; · iexact H10
  isplitl [H11]; · iexact H11
  iexact H12

/-! ## The run and the frame -/

set_option backward.isDefEq.respectTransparency.types false in
/-- Every weakly fair execution of @main terminates; in the final state every window's array is what the library
    computes from the proof data and every other unscoped buffer is as the region found it. -/
theorem run_main : θ_run defs (onTc (τ := τ) (main (F := F))) (s₀ m ρ) (Pipeline.FramePost cfgs (dats m) 0 (V m)) :=
  Pipeline.SharedArrays.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (fun _ => .rfl) (fun _ => .rfl)

/-- After the run the pairwise-feature argument is as launched: its one input window never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 8).trans (((dats m 0 c).arrAt_in 8 rfl _).trans ((A_eq m c 8).trans (V_main_arg0 m c)))

/-- After the run argument 1 is as launched: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 rfl (by decide))).trans (V_main_arg1 m c)

/-- After the run argument 2 is as launched: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 rfl (by decide))).trans (V_main_arg2 m c)

/-- After the run argument 3 is as launched: no window stages it and no host operation writes it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 rfl (by decide))).trans (V_main_arg3 m c)

/-- After the run argument 4 is as launched: no window stages it and no host operation writes it. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 rfl (by decide))).trans (V_main_arg4 m c)

/-- After the run argument 5 is as launched: no window stages it and no host operation writes it. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 rfl (by decide))).trans (V_main_arg5 m c)

/-- The run with the result array named and the arguments unchanged. -/
theorem run_blocks : θ_run defs (onTc (τ := τ) (main (F := F))) ⟨m, fun _ => 0, ρ⟩ fun r => ∀ c : Dev nD,
      r.2.mem ((c : Thread nD τ).loc main_v12) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 13, kept_main_arg0 m r h c, kept_main_arg1 m r h c, kept_main_arg2 m r h c,
      kept_main_arg3 m r h c, kept_main_arg4 m r h c, kept_main_arg5 m r h c⟩)
    (run_main m ρ)

/-- The frame: the program runs to the end, faults nowhere and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_blocks m ρ)

end Cert.KernelIdeal.Frm

end
-- ==== Proof.Spec.lean ====
/-
  The function both programs compute, stated once over literal shapes.

  For a pair of tokens (i, j) with chain ids a, copy ids s, entity ids e and residue numbers r:
  the position bin is the residue offset r i - r j + 32 clipped to [0, 64] when the tokens share a chain and
  65 otherwise; the chain bin is the copy offset s i - s j + 2 clipped to [0, 4] when the tokens are of the
  same entity on different chains and 5 otherwise (all in 32-bit words, as both programs compute them).
  The relative-position feature is the one-hot of the position bin (66 wide), the 42 pairwise features,
  the same-entity indicator, and the one-hot of the chain bin (6 wide); the result is that 115-vector
  times the weight matrix. `elem` is one output element with the product's sum cut at those four pieces.
-/
import Idealize.ShloMosaic.PureOps.Ideal
import Idealize.ShloMosaic.PureOps.Ideal.Laws
import Idealize.ShloMosaic.Lib.ValueIdx

noncomputable section

namespace Cert.RelPos

open Idealize.ShloMosaic Idealize.ShloMosaic.ValueIdx

abbrev STok : Shape := ⟨4, ![1, 1024, 1024, 42]⟩
abbrev SW : Shape := ⟨2, ![115, 128]⟩
abbrev SId : Shape := ⟨2, ![1, 1024]⟩
abbrev SOut : Shape := ⟨4, ![1, 1024, 1024, 128]⟩

abbrev BCol : Shape := ⟨2, ![64, 1]⟩
abbrev BTok : Shape := ⟨4, ![1, 64, 64, 42]⟩
abbrev BWpos : Shape := ⟨2, ![66, 128]⟩
abbrev BWtok : Shape := ⟨2, ![42, 128]⟩
abbrev BWent : Shape := ⟨2, ![1, 128]⟩
abbrev BWch : Shape := ⟨2, ![6, 128]⟩
abbrev BOut : Shape := ⟨4, ![1, 64, 64, 128]⟩

/-- A one-bit word as an extended real: 0 or 1. -/
def ind (b : BitVec 1) : EReal := ((b.toNat : ℝ) : EReal)

/-- Whether two id words are equal, as a one-bit word. -/
def same (x y : BitVec 32) : BitVec 1 := IntOp.cmpi .eq x y

/-- The offset `x - y + off` clipped to `[0, hi]` (signed, wrapping as 32-bit words do). -/
def clipOff (x y off hi : BitVec 32) : BitVec 32 :=
  IntOp.minsi hi (IntOp.maxsi 0#32 (IntOp.addi (IntOp.subi x y) off))

/-- The position bin of a pair: the clipped residue offset on one chain, 65 across chains. -/
def posBin (ai aj ri rj : BitVec 32) : BitVec 32 := Scalar.select (same ai aj) (clipOff ri rj 32#32 64#32) 65#32

/-- The chain bin of a pair: 5 on one chain or across entities, else the clipped copy offset. -/
def chainBin (ai aj si sj ei ej : BitVec 32) : BitVec 32 :=
  Scalar.select (IntOp.ori (same ai aj) (IntOp.xori (same ei ej) 1#1)) 5#32 (clipOff si sj 2#32 4#32)

/-- Entry `k` of the one-hot of bin `d`. -/
def hot (d : BitVec 32) (k : Nat) : EReal := ind (IntOp.cmpi .eq d (BitVec.ofNat 32 k))

/-- One output element: the ids of the row token and of the column token, the pair's 42 features, and the
    weight column cut into its four stretches (rows 0–65, 66–107, 108, 109–114 of the weight matrix). -/
def elem (ai si ei ri aj sj ej rj : BitVec 32) (t : Fin 42 → EReal)
    (wp : Fin 66 → EReal) (wt : Fin 42 → EReal) (we : EReal) (wc : Fin 6 → EReal) : EReal :=
  ((∑ k : Fin 66, hot (posBin ai aj ri rj) k.val * wp k + ∑ k : Fin 42, t k * wt k)
    + ∑ k : Fin 6, hot (chainBin ai aj si sj ei ej) k.val * wc k)
  + ind (same ei ej) * we

/-- The whole result from the argument arrays. -/
def G (tok : FVec Ideal STok .f32) (W : FVec Ideal SW .f32) (aid sid eid rid : IVec SId 32) : FVec Ideal SOut .f32 := fun y =>
  let i : Fin 1024 := ⟨(y 1).val, (y 1).isLt⟩
  let j : Fin 1024 := ⟨(y 2).val, (y 2).isLt⟩
  let c : Fin 128 := ⟨(y 3).val, (y 3).isLt⟩
  elem (aid (ix2 0 i)) (sid (ix2 0 i)) (eid (ix2 0 i)) (rid (ix2 0 i))
    (aid (ix2 0 j)) (sid (ix2 0 j)) (eid (ix2 0 j)) (rid (ix2 0 j))
    (fun k => tok (ix4 0 i j k))
    (fun k => W (ix2 ⟨k.val, by omega⟩ c)) (fun k => W (ix2 ⟨66 + k.val, by omega⟩ c))
    (W (ix2 ⟨108, by omega⟩ c)) (fun k => W (ix2 ⟨109 + k.val, by omega⟩ c))

/-- One 64 x 64 tile of the result from the tile's blocks: the row tokens' id columns, the column tokens' id
    columns, the tile of pairwise features, and the four row stretches of the weight matrix. -/
def Gblk (aq sq eq rq ak sk ek rk : IVec BCol 32) (tok : FVec Ideal BTok .f32)
    (wpos : FVec Ideal BWpos .f32) (wtok : FVec Ideal BWtok .f32) (went : FVec Ideal BWent .f32) (wch : FVec Ideal BWch .f32) :
    FVec Ideal BOut .f32 := fun y =>
  let p : Fin 64 := ⟨(y 1).val, (y 1).isLt⟩
  let q : Fin 64 := ⟨(y 2).val, (y 2).isLt⟩
  let c : Fin 128 := ⟨(y 3).val, (y 3).isLt⟩
  elem (aq (ix2 p 0)) (sq (ix2 p 0)) (eq (ix2 p 0)) (rq (ix2 p 0))
    (ak (ix2 q 0)) (sk (ix2 q 0)) (ek (ix2 q 0)) (rk (ix2 q 0))
    (fun k => tok (ix4 0 p q k))
    (fun k => wpos (ix2 k c)) (fun k => wtok (ix2 k c)) (went (ix2 0 c)) (fun k => wch (ix2 k c))

end Cert.RelPos

end
-- ==== Proof.KernelIdealBlocks.lean ====
/-
  From tiles to the array: what the kernel's grid point t writes back is tile t of the whole result.

  The tile at grid point t = (bi, bj) covers rows 64 bi .. 64 bi + 63 and columns 64 bj .. 64 bj + 63 of the
  [1, 1024, 1024, 128] result. Its query-side id blocks are rows 64 bi .. of the id columns, its key-side id
  blocks rows 64 bj .., its feature block the same tile of the pairwise features, and the four weight blocks
  are the four row stretches of the weight matrix (the same at every point). An id column is the id vector
  reshaped [1,1024] -> [1024] -> [1024,1], so its entry (r, 0) is the vector's entry (0, r).
-/
import proofs.«102805_j43044162241209_1_alg».proof.Proof.KernelIdealFrame
import proofs.«102805_j43044162241209_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Frm Cert.RelPos
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, from the arguments -/

/-- An id vector [1, 1024] reshaped to a column [1024, 1] reads, at row r, the vector's entry r. -/
theorem col_apply (x : IVec S1x1024 32) (i : S1024x1.Idx) :
    shapeCast S1024x1 (shapeCast S1024 x shapeCasts_S1x1024_S1024) shapeCasts_S1024_S1024x1 i = x (ix2 0 ⟨(i 0).val, (i 0).isLt⟩) := by
  refine (shapeCast_apply _ shapeCasts_S1024_S1024x1 i (ix1 ⟨(i 0).val, (i 0).isLt⟩) ?_).trans ?_
  · rw [Shape.rowMajor_val_one, Shape.rowMajor_val_two]
    have h1 : (i 1).val < 1 := (i 1).isLt
    show (i 0).val = (i 0).val * 1 + (i 1).val
    omega
  · refine shapeCast_apply _ shapeCasts_S1x1024_S1024 _ (ix2 0 ⟨(i 0).val, (i 0).isLt⟩) ?_
    rw [Shape.rowMajor_val_one, Shape.rowMajor_val_two]
    show 0 * 1024 + (i 0).val = (i 0).val
    omega

theorem V_v1 (c : Dev nD) : (V m c main_v1 : S1024x1.Idx → BitVec 32)
    = shapeCast S1024x1 (shapeCast S1024 (m ((c.tc : Thread nD τ).loc main_arg2)) shapeCasts_S1x1024_S1024) shapeCasts_S1024_S1024x1 := by
  dsimp only [V, hostOps0]; after_results; rfl
theorem V_v3 (c : Dev nD) : (V m c main_v3 : S1024x1.Idx → BitVec 32)
    = shapeCast S1024x1 (shapeCast S1024 (m ((c.tc : Thread nD τ).loc main_arg3)) shapeCasts_S1x1024_S1024) shapeCasts_S1024_S1024x1 := by
  dsimp only [V, hostOps0]; after_results; rfl
theorem V_v5 (c : Dev nD) : (V m c main_v5 : S1024x1.Idx → BitVec 32)
    = shapeCast S1024x1 (shapeCast S1024 (m ((c.tc : Thread nD τ).loc main_arg4)) shapeCasts_S1x1024_S1024) shapeCasts_S1024_S1024x1 := by
  dsimp only [V, hostOps0]; after_results; rfl
theorem V_v7 (c : Dev nD) : (V m c main_v7 : S1024x1.Idx → BitVec 32)
    = shapeCast S1024x1 (shapeCast S1024 (m ((c.tc : Thread nD τ).loc main_arg5)) shapeCasts_S1x1024_S1024) shapeCasts_S1024_S1024x1 := by
  dsimp only [V, hostOps0]; after_results; rfl
theorem V_v8 (c : Dev nD) : (V m c main_v8 : S66x128.Idx → EReal)
    = extractStridedSlice S66x128 ![0, 0] (m ((c.tc : Thread nD τ).loc main_arg1)) slices_S115x128_S66x128_0_0 := by
  dsimp only [V, hostOps0]; after_results
theorem V_v9 (c : Dev nD) : (V m c main_v9 : S42x128.Idx → EReal)
    = extractStridedSlice S42x128 ![66, 0] (m ((c.tc : Thread nD τ).loc main_arg1)) slices_S115x128_S42x128_66_0 := by
  dsimp only [V, hostOps0]; after_results
theorem V_v10 (c : Dev nD) : (V m c main_v10 : S1x128.Idx → EReal)
    = extractStridedSlice S1x128 ![108, 0] (m ((c.tc : Thread nD τ).loc main_arg1)) slices_S115x128_S1x128_108_0 := by
  dsimp only [V, hostOps0]; after_results
theorem V_v11 (c : Dev nD) : (V m c main_v11 : S6x128.Idx → EReal)
    = extractStridedSlice S6x128 ![109, 0] (m ((c.tc : Thread nD τ).loc main_arg1)) slices_S115x128_S6x128_109_0 := by
  dsimp only [V, hostOps0]; after_results

/-! ## The printed index maps, decided over the grid -/

theorem idx_q0 : ∀ t : Fin cfg0.N, win0_0.index t (0 : Fin 2) = win0_13.index t (1 : Fin 4) ∧ win0_0.index t (1 : Fin 2) = 0 :=
  (by decide +kernel : ∀ t : Fin grid0.N, _)
theorem idx_q1 : ∀ t : Fin cfg0.N, win0_1.index t (0 : Fin 2) = win0_13.index t (1 : Fin 4) ∧ win0_1.index t (1 : Fin 2) = 0 :=
  (by decide +kernel : ∀ t : Fin grid0.N, _)
theorem idx_q2 : ∀ t : Fin cfg0.N, win0_2.index t (0 : Fin 2) = win0_13.index t (1 : Fin 4) ∧ win0_2.index t (1 : Fin 2) = 0 :=
  (by decide +kernel : ∀ t : Fin grid0.N, _)
theorem idx_q3 : ∀ t : Fin cfg0.N, win0_3.index t (0 : Fin 2) = win0_13.index t (1 : Fin 4) ∧ win0_3.index t (1 : Fin 2) = 0 :=
  (by decide +kernel : ∀ t : Fin grid0.N, _)
theorem idx_k4 : ∀ t : Fin cfg0.N, win0_4.index t (0 : Fin 2) = win0_13.index t (2 : Fin 4) ∧ win0_4.index t (1 : Fin 2) = 0 :=
  (by decide +kernel : ∀ t : Fin grid0.N, _)
theorem idx_k5 : ∀ t : Fin cfg0.N, win0_5.index t (0 : Fin 2) = win0_13.index t (2 : Fin 4) ∧ win0_5.index t (1 : Fin 2) = 0 :=
  (by decide +kernel : ∀ t : Fin grid0.N, _)
theorem idx_k6 : ∀ t : Fin cfg0.N, win0_6.index t (0 : Fin 2) = win0_13.index t (2 : Fin 4) ∧ win0_6.index t (1 : Fin 2) = 0 :=
  (by decide +kernel : ∀ t : Fin grid0.N, _)
theorem idx_k7 : ∀ t : Fin cfg0.N, win0_7.index t (0 : Fin 2) = win0_13.index t (2 : Fin 4) ∧ win0_7.index t (1 : Fin 2) = 0 :=
  (by decide +kernel : ∀ t : Fin grid0.N, _)
theorem idx_tok : ∀ t : Fin cfg0.N, win0_8.index t (0 : Fin 4) = 0 ∧ win0_8.index t (1 : Fin 4) = win0_13.index t (1 : Fin 4)
    ∧ win0_8.index t (2 : Fin 4) = win0_13.index t (2 : Fin 4) ∧ win0_8.index t (3 : Fin 4) = 0 :=
  (by decide +kernel : ∀ t : Fin grid0.N, _)
theorem idx_w : ∀ t : Fin cfg0.N, win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)
theorem idx_out : ∀ t : Fin cfg0.N, win0_13.index t (0 : Fin 4) = 0 ∧ win0_13.index t (1 : Fin 4) < 16
    ∧ win0_13.index t (2 : Fin 4) < 16 ∧ win0_13.index t (3 : Fin 4) = 0 :=
  (by decide +kernel : ∀ t : Fin grid0.N, _)
/-- Every tile of the 16 x 16 tiling is some grid point's. -/
theorem idx_onto : ∀ (q1 q2 : Fin 16), ∃ t : Fin cfg0.N, win0_13.index t = ![0, q1.val, q2.val, 0] :=
  (by decide +kernel : ∀ (q1 q2 : Fin 16), ∃ t : Fin grid0.N, win0_13.index t = ![0, q1.val, q2.val, 0])

/-! ## The input blocks at a point, from the arguments -/

/-- Row p of the query-side block of id column 1 at point t is the id vector's entry at the tile's row offset plus p. -/
theorem blk_0 (c : Dev nD) (t : Fin cfg0.N) (p : Fin 64) (r : Fin 1024) (hr : r.val = win0_13.index t 1 * 64 + p.val) :
    iblk m c 0 t (ix2 p 0) = m ((c.tc : Thread nD τ).loc main_arg2) (ix2 0 r) := by
  obtain ⟨e0, e1⟩ := idx_q0 t
  show V m c main_v1 (((cfg0.win 0).blk t).view.emb (ix2 p 0)) = _
  refine (congrFun (V_v1 m c) _).trans ((col_apply _ _).trans (congrArg _ ?_))
  funext a; apply Fin.ext
  match a with
  | ⟨0, _⟩ => rfl
  | ⟨1, _⟩ => show win0_0.index t (0 : Fin 2) * 64 + 1 * p.val = r.val; omega
/-- Row p of the query-side block of id column 3 at point t is the id vector's entry at the tile's row offset plus p. -/
theorem blk_1 (c : Dev nD) (t : Fin cfg0.N) (p : Fin 64) (r : Fin 1024) (hr : r.val = win0_13.index t 1 * 64 + p.val) :
    iblk m c 1 t (ix2 p 0) = m ((c.tc : Thread nD τ).loc main_arg3) (ix2 0 r) := by
  obtain ⟨e0, e1⟩ := idx_q1 t
  show V m c main_v3 (((cfg0.win 1).blk t).view.emb (ix2 p 0)) = _
  refine (congrFun (V_v3 m c) _).trans ((col_apply _ _).trans (congrArg _ ?_))
  funext a; apply Fin.ext
  match a with
  | ⟨0, _⟩ => rfl
  | ⟨1, _⟩ => show win0_1.index t (0 : Fin 2) * 64 + 1 * p.val = r.val; omega
/-- Row p of the query-side block of id column 5 at point t is the id vector's entry at the tile's row offset plus p. -/
theorem blk_2 (c : Dev nD) (t : Fin cfg0.N) (p : Fin 64) (r : Fin 1024) (hr : r.val = win0_13.index t 1 * 64 + p.val) :
    iblk m c 2 t (ix2 p 0) = m ((c.tc : Thread nD τ).loc main_arg4) (ix2 0 r) := by
  obtain ⟨e0, e1⟩ := idx_q2 t
  show V m c main_v5 (((cfg0.win 2).blk t).view.emb (ix2 p 0)) = _
  refine (congrFun (V_v5 m c) _).trans ((col_apply _ _).trans (congrArg _ ?_))
  funext a; apply Fin.ext
  match a with
  | ⟨0, _⟩ => rfl
  | ⟨1, _⟩ => show win0_2.index t (0 : Fin 2) * 64 + 1 * p.val = r.val; omega
/-- Row p of the query-side block of id column 7 at point t is the id vector's entry at the tile's row offset plus p. -/
theorem blk_3 (c : Dev nD) (t : Fin cfg0.N) (p : Fin 64) (r : Fin 1024) (hr : r.val = win0_13.index t 1 * 64 + p.val) :
    iblk m c 3 t (ix2 p 0) = m ((c.tc : Thread nD τ).loc main_arg5) (ix2 0 r) := by
  obtain ⟨e0, e1⟩ := idx_q3 t
  show V m c main_v7 (((cfg0.win 3).blk t).view.emb (ix2 p 0)) = _
  refine (congrFun (V_v7 m c) _).trans ((col_apply _ _).trans (congrArg _ ?_))
  funext a; apply Fin.ext
  match a with
  | ⟨0, _⟩ => rfl
  | ⟨1, _⟩ => show win0_3.index t (0 : Fin 2) * 64 + 1 * p.val = r.val; omega
/-- Row q of the key-side block of id column 1 at point t is the id vector's entry at the tile's column offset plus q. -/
theorem blk_4 (c : Dev nD) (t : Fin cfg0.N) (q : Fin 64) (r : Fin 1024) (hr : r.val = win0_13.index t 2 * 64 + q.val) :
    iblk m c 4 t (ix2 q 0) = m ((c.tc : Thread nD τ).loc main_arg2) (ix2 0 r) := by
  obtain ⟨e0, e1⟩ := idx_k4 t
  show V m c main_v1 (((cfg0.win 4).blk t).view.emb (ix2 q 0)) = _
  refine (congrFun (V_v1 m c) _).trans ((col_apply _ _).trans (congrArg _ ?_))
  funext a; apply Fin.ext
  match a with
  | ⟨0, _⟩ => rfl
  | ⟨1, _⟩ => show win0_4.index t (0 : Fin 2) * 64 + 1 * q.val = r.val; omega
/-- Row q of the key-side block of id column 3 at point t is the id vector's entry at the tile's column offset plus q. -/
theorem blk_5 (c : Dev nD) (t : Fin cfg0.N) (q : Fin 64) (r : Fin 1024) (hr : r.val = win0_13.index t 2 * 64 + q.val) :
    iblk m c 5 t (ix2 q 0) = m ((c.tc : Thread nD τ).loc main_arg3) (ix2 0 r) := by
  obtain ⟨e0, e1⟩ := idx_k5 t
  show V m c main_v3 (((cfg0.win 5).blk t).view.emb (ix2 q 0)) = _
  refine (congrFun (V_v3 m c) _).trans ((col_apply _ _).trans (congrArg _ ?_))
  funext a; apply Fin.ext
  match a with
  | ⟨0, _⟩ => rfl
  | ⟨1, _⟩ => show win0_5.index t (0 : Fin 2) * 64 + 1 * q.val = r.val; omega
/-- Row q of the key-side block of id column 5 at point t is the id vector's entry at the tile's column offset plus q. -/
theorem blk_6 (c : Dev nD) (t : Fin cfg0.N) (q : Fin 64) (r : Fin 1024) (hr : r.val = win0_13.index t 2 * 64 + q.val) :
    iblk m c 6 t (ix2 q 0) = m ((c.tc : Thread nD τ).loc main_arg4) (ix2 0 r) := by
  obtain ⟨e0, e1⟩ := idx_k6 t
  show V m c main_v5 (((cfg0.win 6).blk t).view.emb (ix2 q 0)) = _
  refine (congrFun (V_v5 m c) _).trans ((col_apply _ _).trans (congrArg _ ?_))
  funext a; apply Fin.ext
  match a with
  | ⟨0, _⟩ => rfl
  | ⟨1, _⟩ => show win0_6.index t (0 : Fin 2) * 64 + 1 * q.val = r.val; omega
/-- Row q of the key-side block of id column 7 at point t is the id vector's entry at the tile's column offset plus q. -/
theorem blk_7 (c : Dev nD) (t : Fin cfg0.N) (q : Fin 64) (r : Fin 1024) (hr : r.val = win0_13.index t 2 * 64 + q.val) :
    iblk m c 7 t (ix2 q 0) = m ((c.tc : Thread nD τ).loc main_arg5) (ix2 0 r) := by
  obtain ⟨e0, e1⟩ := idx_k7 t
  show V m c main_v7 (((cfg0.win 7).blk t).view.emb (ix2 q 0)) = _
  refine (congrFun (V_v7 m c) _).trans ((col_apply _ _).trans (congrArg _ ?_))
  funext a; apply Fin.ext
  match a with
  | ⟨0, _⟩ => rfl
  | ⟨1, _⟩ => show win0_7.index t (0 : Fin 2) * 64 + 1 * q.val = r.val; omega

/-- The feature block at point t is the same tile of the pairwise features. -/
theorem blk_8 (c : Dev nD) (t : Fin cfg0.N) (p q : Fin 64) (k : Fin 42) (r1 r2 : Fin 1024)
    (h1 : r1.val = win0_13.index t 1 * 64 + p.val) (h2 : r2.val = win0_13.index t 2 * 64 + q.val) :
    iblk m c 8 t (ix4 0 p q k) = m ((c.tc : Thread nD τ).loc main_arg0) (ix4 0 r1 r2 k) := by
  obtain ⟨e0, e1, e2, e3⟩ := idx_tok t
  show V m c main_arg0 (((cfg0.win 8).blk t).view.emb (ix4 0 p q k)) = _
  rw [V_main_arg0]
  refine congrArg _ ?_
  funext a; apply Fin.ext
  match a with
  | ⟨0, _⟩ => show win0_8.index t (0 : Fin 4) * 1 + 1 * 0 = 0; omega
  | ⟨1, _⟩ => show win0_8.index t (1 : Fin 4) * 64 + 1 * p.val = r1.val; omega
  | ⟨2, _⟩ => show win0_8.index t (2 : Fin 4) * 64 + 1 * q.val = r2.val; omega
  | ⟨3, _⟩ => show win0_8.index t (3 : Fin 4) * 42 + 1 * k.val = k.val; omega

/-- The four weight blocks are the four row stretches of the weight matrix, at every point. -/
theorem blk_9 (c : Dev nD) (t : Fin cfg0.N) (k : Fin 66) (n : Fin 128) :
    iblk m c 9 t (ix2 k n) = m ((c.tc : Thread nD τ).loc main_arg1) (ix2 ⟨k.val, by omega⟩ n) := by
  obtain ⟨e0, e1, -⟩ := idx_w t
  show V m c main_v8 (((cfg0.win 9).blk t).view.emb (ix2 k n)) = _
  refine (congrFun (V_v8 m c) _).trans (extractStridedSlice_apply _ _ _ _ _ fun a => ?_)
  match a with
  | ⟨0, _⟩ => show k.val = 0 + (win0_9.index t (0 : Fin 2) * 66 + 1 * k.val); omega
  | ⟨1, _⟩ => show n.val = 0 + (win0_9.index t (1 : Fin 2) * 128 + 1 * n.val); omega

theorem blk_10 (c : Dev nD) (t : Fin cfg0.N) (k : Fin 42) (n : Fin 128) :
    iblk m c 10 t (ix2 k n) = m ((c.tc : Thread nD τ).loc main_arg1) (ix2 ⟨66 + k.val, by omega⟩ n) := by
  obtain ⟨-, -, e0, e1, -⟩ := idx_w t
  show V m c main_v9 (((cfg0.win 10).blk t).view.emb (ix2 k n)) = _
  refine (congrFun (V_v9 m c) _).trans (extractStridedSlice_apply _ _ _ _ _ fun a => ?_)
  match a with
  | ⟨0, _⟩ => show 66 + k.val = 66 + (win0_10.index t (0 : Fin 2) * 42 + 1 * k.val); omega
  | ⟨1, _⟩ => show n.val = 0 + (win0_10.index t (1 : Fin 2) * 128 + 1 * n.val); omega

theorem blk_11 (c : Dev nD) (t : Fin cfg0.N) (n : Fin 128) :
    iblk m c 11 t (ix2 0 n) = m ((c.tc : Thread nD τ).loc main_arg1) (ix2 ⟨108, by omega⟩ n) := by
  obtain ⟨-, -, -, -, e0, e1, -⟩ := idx_w t
  show V m c main_v10 (((cfg0.win 11).blk t).view.emb (ix2 0 n)) = _
  refine (congrFun (V_v10 m c) _).trans (extractStridedSlice_apply _ _ _ _ _ fun a => ?_)
  match a with
  | ⟨0, _⟩ => show 108 = 108 + (win0_11.index t (0 : Fin 2) * 1 + 1 * 0); omega
  | ⟨1, _⟩ => show n.val = 0 + (win0_11.index t (1 : Fin 2) * 128 + 1 * n.val); omega

theorem blk_12 (c : Dev nD) (t : Fin cfg0.N) (k : Fin 6) (n : Fin 128) :
    iblk m c 12 t (ix2 k n) = m ((c.tc : Thread nD τ).loc main_arg1) (ix2 ⟨109 + k.val, by omega⟩ n) := by
  obtain ⟨-, -, -, -, -, -, e0, e1⟩ := idx_w t
  show V m c main_v11 (((cfg0.win 12).blk t).view.emb (ix2 k n)) = _
  refine (congrFun (V_v11 m c) _).trans (extractStridedSlice_apply _ _ _ _ _ fun a => ?_)
  match a with
  | ⟨0, _⟩ => show 109 + k.val = 109 + (win0_12.index t (0 : Fin 2) * 6 + 1 * k.val); omega
  | ⟨1, _⟩ => show n.val = 0 + (win0_12.index t (1 : Fin 2) * 128 + 1 * n.val); omega

/-! ## The specification read at named coordinates -/

theorem G_at (tok : FVec Ideal STok .f32) (W : FVec Ideal SW .f32) (aid sid eid rid : IVec SId 32) (y : SOut.Idx)
    (i j : Fin 1024) (n : Fin 128) (hi : (y 1).val = i.val) (hj : (y 2).val = j.val) (hn : (y 3).val = n.val) :
    G tok W aid sid eid rid y = elem (aid (ix2 0 i)) (sid (ix2 0 i)) (eid (ix2 0 i)) (rid (ix2 0 i))
      (aid (ix2 0 j)) (sid (ix2 0 j)) (eid (ix2 0 j)) (rid (ix2 0 j))
      (fun k => tok (ix4 0 i j k))
      (fun k => W (ix2 ⟨k.val, by omega⟩ n)) (fun k => W (ix2 ⟨66 + k.val, by omega⟩ n))
      (W (ix2 ⟨108, by omega⟩ n)) (fun k => W (ix2 ⟨109 + k.val, by omega⟩ n)) := by
  obtain rfl : (⟨(y 1).val, (y 1).isLt⟩ : Fin 1024) = i := Fin.ext hi
  obtain rfl : (⟨(y 2).val, (y 2).isLt⟩ : Fin 1024) = j := Fin.ext hj
  obtain rfl : (⟨(y 3).val, (y 3).isLt⟩ : Fin 128) = n := Fin.ext hn
  rfl

theorem Gblk_at (aq sq eq rq ak sk ek rk : IVec BCol 32) (tok : FVec Ideal BTok .f32)
    (wpos : FVec Ideal BWpos .f32) (wtok : FVec Ideal BWtok .f32) (went : FVec Ideal BWent .f32) (wch : FVec Ideal BWch .f32)
    (y : BOut.Idx) (p q : Fin 64) (n : Fin 128) (hp : (y 1).val = p.val) (hq : (y 2).val = q.val) (hn : (y 3).val = n.val) :
    Gblk aq sq eq rq ak sk ek rk tok wpos wtok went wch y = elem (aq (ix2 p 0)) (sq (ix2 p 0)) (eq (ix2 p 0)) (rq (ix2 p 0))
      (ak (ix2 q 0)) (sk (ix2 q 0)) (ek (ix2 q 0)) (rk (ix2 q 0))
      (fun k => tok (ix4 0 p q k))
      (fun k => wpos (ix2 k n)) (fun k => wtok (ix2 k n)) (went (ix2 0 n)) (fun k => wch (ix2 k n)) := by
  obtain rfl : (⟨(y 1).val, (y 1).isLt⟩ : Fin 64) = p := Fin.ext hp
  obtain rfl : (⟨(y 2).val, (y 2).isLt⟩ : Fin 64) = q := Fin.ext hq
  obtain rfl : (⟨(y 3).val, (y 3).isLt⟩ : Fin 128) = n := Fin.ext hn
  rfl

/-! ## A tile of the specification is the tile function of the point's blocks -/

theorem tile_eq (c : Dev nD) (t : Fin cfg0.N) :
    Gblk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      = ((cfg0.win 13).blk t).view.read (Elt Ideal) (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  obtain ⟨o0, o1, o2, o3⟩ := idx_out t
  funext y
  have hy1 : (y 1).val < 64 := (y 1).isLt
  have hy2 : (y 2).val < 64 := (y 2).isLt
  have hy3 : (y 3).val < 128 := (y 3).isLt
  show _ = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 13).blk t).view.emb y)
  rw [Gblk_at _ _ _ _ _ _ _ _ _ _ _ _ _ y ⟨(y 1).val, hy1⟩ ⟨(y 2).val, hy2⟩ ⟨(y 3).val, hy3⟩ rfl rfl rfl,
    G_at _ _ _ _ _ _ (((cfg0.win 13).blk t).view.emb y) ⟨win0_13.index t 1 * 64 + (y 1).val, by omega⟩ ⟨win0_13.index t 2 * 64 + (y 2).val, by omega⟩ ⟨(y 3).val, hy3⟩
      (by show win0_13.index t (1 : Fin 4) * 64 + 1 * (y 1).val = win0_13.index t 1 * 64 + (y 1).val; omega)
      (by show win0_13.index t (2 : Fin 4) * 64 + 1 * (y 2).val = win0_13.index t 2 * 64 + (y 2).val; omega)
      (by show win0_13.index t (3 : Fin 4) * 128 + 1 * (y 3).val = (y 3).val; omega)]
  simp only [blk_0 m c t ⟨(y 1).val, hy1⟩ ⟨win0_13.index t 1 * 64 + (y 1).val, by omega⟩ rfl, blk_1 m c t ⟨(y 1).val, hy1⟩ ⟨win0_13.index t 1 * 64 + (y 1).val, by omega⟩ rfl,
    blk_2 m c t ⟨(y 1).val, hy1⟩ ⟨win0_13.index t 1 * 64 + (y 1).val, by omega⟩ rfl, blk_3 m c t ⟨(y 1).val, hy1⟩ ⟨win0_13.index t 1 * 64 + (y 1).val, by omega⟩ rfl,
    blk_4 m c t ⟨(y 2).val, hy2⟩ ⟨win0_13.index t 2 * 64 + (y 2).val, by omega⟩ rfl, blk_5 m c t ⟨(y 2).val, hy2⟩ ⟨win0_13.index t 2 * 64 + (y 2).val, by omega⟩ rfl,
    blk_6 m c t ⟨(y 2).val, hy2⟩ ⟨win0_13.index t 2 * 64 + (y 2).val, by omega⟩ rfl, blk_7 m c t ⟨(y 2).val, hy2⟩ ⟨win0_13.index t 2 * 64 + (y 2).val, by omega⟩ rfl,
    fun k => blk_8 m c t ⟨(y 1).val, hy1⟩ ⟨(y 2).val, hy2⟩ k ⟨win0_13.index t 1 * 64 + (y 1).val, by omega⟩ ⟨win0_13.index t 2 * 64 + (y 2).val, by omega⟩ rfl rfl,
    blk_9 m c t, blk_10 m c t, blk_11 m c t, blk_12 m c t]

/-! ## The result array after the run -/

theorem hz4 : (![0, 0, 0, 0] : Fin 4 → Nat) = fun _ => 0 := funext fun a => by fin_cases a <;> rfl
theorem hz2 : (![0, 0] : Fin 2 → Nat) = fun _ => 0 := funext fun a => by fin_cases a <;> rfl

end Cert.KernelIdeal.Val

end
-- ==== Proof.KernelIdealPayload.lean ====
/-
  The kernel body's arithmetic, read one output element at a time, is the tile function of the specification.

  The body forms, for every pair (p, q) of a row token and a column token of the tile, the same-chain and same-entity
  bits, the clipped residue and copy offsets and from them the position bin and the chain bin; it lays the one-hot of
  the position bin (66 wide), the pair's 42 features and the one-hot of the chain bin (6 wide) out as arrays of
  4096 = 64 * 64 rows, multiplies each by its stretch of weight rows into a zero accumulator, adds the three products,
  and adds the same-entity bit times weight row 108. Read at the output element (0, p, q, c) this is row p * 64 + q,
  column c of that sum: a sum over 66, over 42 and over 6 products and one more product, the four pieces of the
  specification's element in the same order. Each step below reads one operation at an index: a layout operation
  names the operand's index with the same row-major position, a product into a zero accumulator is the sum over its
  contracted axis, a change of float format is the identity on extended reals, and a one-bit word widened and
  converted is 0 or 1.
-/
import proofs.«102805_j43044162241209_1_alg».proof.Proof.Gen.KernelIdeal.Skeleton
import proofs.«102805_j43044162241209_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

section Layout
variable {α : Type}

/-- A column [64,1] flattened to [64], stood up again as [64,1] and repeated along the second axis reads, at (p, q), the
    column's entry p. -/
theorem rowRep_apply (x : S64x1.Idx → α) (h1 : S64x1.ShapeCasts S64) (h2 : S64.ShapeCasts S64x1) (h3 : S64x1.Broadcasts S64x64)
    (p q : Fin 64) :
    broadcastTo S64x64 (shapeCast S64x1 (shapeCast S64 x h1) h2) h3 (ix2 p q) = x (ix2 p (0 : Fin 1)) := by
  refine (broadcastTo_apply _ h3 (ix2 p q) (ix2 p (0 : Fin 1)) fun a => ?_).trans ?_
  · match a with
    | ⟨0, _⟩ => rfl
    | ⟨1, _⟩ => rfl
  · rw [shapeCast_shapeCast]

/-- The same column laid as a row [1,64] and repeated along the first axis reads, at (p, q), the column's entry q. -/
theorem colRep_apply (x : S64x1.Idx → α) (h1 : S64x1.ShapeCasts S64) (h2 : S64.ShapeCasts S1x64) (h3 : S1x64.Broadcasts S64x64)
    (p q : Fin 64) :
    broadcastTo S64x64 (shapeCast S1x64 (shapeCast S64 x h1) h2) h3 (ix2 p q) = x (ix2 q (0 : Fin 1)) := by
  refine (broadcastTo_1b_ab_apply _ h3 p q).trans ?_
  refine (shapeCast_a_1a_apply _ h2 (0 : Fin 1) q).trans ?_
  refine shapeCast_apply x h1 (ix1 q) (ix2 q (0 : Fin 1)) ?_
  rw [Shape.rowMajor_val_two, Shape.rowMajor_val_one]
  show q.val * 1 + 0 = q.val
  omega

end Layout

/-! ## The pairwise id comparisons and clipped offsets at a pair (p, q) -/

/-- Same-chain bit of the pair: the row token's id against the column token's. -/
theorem pay4_apply (x0 x4 : Vec Ideal S64x1 .i32) (p q : Fin 64) :
    k0_pay4 (F := Ideal) x0 x4 (ix2 p q) = IntOp.cmpi .eq (x0 (ix2 p (0 : Fin 1))) (x4 (ix2 q (0 : Fin 1))) := by
  unfold k0_pay4
  show IntOp.cmpi .eq (broadcastTo S64x64 _ _ (ix2 p q)) (broadcastTo S64x64 _ _ (ix2 p q)) = _
  rw [rowRep_apply, colRep_apply]

/-- Same-entity bit of the pair. -/
theorem pay5_apply (x2 x6 : Vec Ideal S64x1 .i32) (p q : Fin 64) :
    k0_pay5 (F := Ideal) x2 x6 (ix2 p q) = IntOp.cmpi .eq (x2 (ix2 p (0 : Fin 1))) (x6 (ix2 q (0 : Fin 1))) := by
  unfold k0_pay5
  show IntOp.cmpi .eq (broadcastTo S64x64 _ _ (ix2 p q)) (broadcastTo S64x64 _ _ (ix2 p q)) = _
  rw [rowRep_apply, colRep_apply]

/-- The residue offset of the pair plus 32, clipped to [0, 64]. -/
theorem pay6_apply (x3 x7 : Vec Ideal S64x1 .i32) (p q : Fin 64) :
    k0_pay6 (F := Ideal) x3 x7 (ix2 p q)
      = IntOp.minsi 64#32 (IntOp.maxsi 0#32 (IntOp.addi (IntOp.subi (x3 (ix2 p (0 : Fin 1))) (x7 (ix2 q (0 : Fin 1)))) 32#32)) := by
  unfold k0_pay6
  show IntOp.minsi 64#32 (IntOp.maxsi 0#32 (IntOp.addi (IntOp.subi (broadcastTo S64x64 _ _ (ix2 p q)) (broadcastTo S64x64 _ _ (ix2 p q))) 32#32)) = _
  rw [rowRep_apply, colRep_apply]

/-- The bin of a pair on different chains. -/
theorem pay7_apply (p q : Fin 64) : k0_pay7 (ix2 p q) = 65#32 := rfl

/-! ## Laying a 64 x 64 grid of K-vectors out as 4096 rows -/

/-- Row p * 64 + q of the 4096 rows. -/
def row (p q : Fin 64) : Fin 4096 := ⟨p.val * 64 + q.val, by omega⟩

section Layout3
variable {α : Type}

/-- A [64,64,K] array viewed as [4096,K] reads, at (row p q, k), the entry (p, q, k). -/
theorem flat_apply {K : ℕ} (x : (⟨3, ![64, 64, K]⟩ : Shape).Idx → α)
    (h : (⟨3, ![64, 64, K]⟩ : Shape).ShapeCasts ⟨2, ![4096, K]⟩) (p q : Fin 64) (k : Fin K) :
    shapeCast ⟨2, ![4096, K]⟩ x h (ix2 (row p q) k) = x (ix3 p q k) :=
  shapeCast_apply x h _ _ (by
    rw [Shape.rowMajor_val_three, Shape.rowMajor_val_two]
    rfl)

/-- A [4096,K] array viewed as [64,64,K] reads, at (p, q, k), the entry (row p q, k). -/
theorem unflat_apply {K : ℕ} (x : (⟨2, ![4096, K]⟩ : Shape).Idx → α)
    (h : (⟨2, ![4096, K]⟩ : Shape).ShapeCasts ⟨3, ![64, 64, K]⟩) (p q : Fin 64) (k : Fin K) :
    shapeCast ⟨3, ![64, 64, K]⟩ x h (ix3 p q k) = x (ix2 (row p q) k) :=
  shapeCast_apply x h _ _ (by
    rw [Shape.rowMajor_val_three, Shape.rowMajor_val_two]
    rfl)

/-- A [64,64] array given a trailing unit axis reads, at (p, q, u), the entry (p, q). -/
theorem keep_apply (x : S64x64.Idx → α) (h : S64x64.ShapeCasts S64x64x1) (p q : Fin 64) (u : Fin 1) :
    shapeCast S64x64x1 x h (ix3 p q u) = x (ix2 p q) :=
  shapeCast_apply x h _ _ (by
    have hu : u.val = 0 := by omega
    rw [Shape.rowMajor_val_three, Shape.rowMajor_val_two]
    show p.val * 64 + q.val = (p.val * 64 + q.val) * 1 + u.val
    omega)

/-- A [64,64,1] array repeated K times along its last axis reads, at (p, q, k), the entry (p, q, 0). -/
theorem lastRep_apply {K : ℕ} (x : S64x64x1.Idx → α) (h : S64x64x1.Broadcasts ⟨3, ![64, 64, K]⟩) (p q : Fin 64) (k : Fin K) :
    broadcastTo ⟨3, ![64, 64, K]⟩ x h (ix3 p q k) = x (ix3 p q (0 : Fin 1)) :=
  broadcastTo_apply x h _ _ fun a => match a with
    | ⟨0, _⟩ => rfl
    | ⟨1, _⟩ => rfl
    | ⟨2, _⟩ => rfl

end Layout3

/-- The last-axis counter of a [64,64,K] array reads, at (p, q, k), the word k. -/
theorem iota_last_apply {K : ℕ} (h : (⟨3, ![64, 64, K]⟩ : Shape).Iotas .tc 32 [2]) (p q : Fin 64) (k : Fin K) :
    iota .tc ⟨3, ![64, 64, K]⟩ 32 [2] h (ix3 p q k) = BitVec.ofNat 32 k.val :=
  iota_single_apply .tc ⟨3, ![64, 64, K]⟩ 32 2 h (ix3 p q k)

/-! ## A one-bit word widened to 32 bits and converted, signed, to an extended real: 0 or 1 -/

theorem bit_toInt (b : BitVec 1) : (b.setWidth 32).toInt = (b.toNat : ℤ) := by
  rcases BitVec.eq_zero_or_eq_one b with h | h <;> subst h <;> decide

theorem sitofp_bit (b : BitVec 1) : (FloatOps.sitofp .f32 (b.setWidth 32) : Ideal .f32) = ((b.toNat : ℝ) : EReal) := by
  show (((b.setWidth 32).toInt : ℝ) : EReal) = _
  rw [bit_toInt, Int.cast_natCast]

/-! ## The one-hot rows: bin d(p, q) against the counter, as 0 / 1 entries of a [4096, K] array -/

theorem hotRows_apply {K : ℕ} (d : IVec S64x64 32) (h1 : S64x64.ShapeCasts S64x64x1)
    (h2 : S64x64x1.Broadcasts ⟨3, ![64, 64, K]⟩) (h3 : (⟨3, ![64, 64, K]⟩ : Shape).Iotas .tc 32 [2]) (h4 : 1 < 32)
    (h5 : FTy.bits .bf16 < FTy.bits .f32) (h6 : (⟨3, ![64, 64, K]⟩ : Shape).ShapeCasts ⟨2, ![4096, K]⟩)
    (p q : Fin 64) (k : Fin K) :
    (shapeCast ⟨2, ![4096, K]⟩ (truncf (F := Ideal) .bf16 (sitofp (F := Ideal) .f32 (extui 32 (cmpi .eq
        (broadcastTo ⟨3, ![64, 64, K]⟩ (shapeCast S64x64x1 d h1) h2) (iota .tc ⟨3, ![64, 64, K]⟩ 32 [2] h3)) h4)) h5) h6
      : FVec Ideal ⟨2, ![4096, K]⟩ .bf16) (ix2 (row p q) k)
      = (((IntOp.cmpi .eq (d (ix2 p q)) (BitVec.ofNat 32 k.val)).toNat : ℝ) : EReal) := by
  refine (flat_apply _ h6 p q k).trans ?_
  show (FloatOps.sitofp .f32 ((IntOp.cmpi .eq (broadcastTo _ _ h2 (ix3 p q k)) (iota .tc _ 32 [2] h3 (ix3 p q k))).setWidth 32) : Ideal .f32) = _
  rw [sitofp_bit, lastRep_apply, keep_apply, iota_last_apply]

/-! ## The three products into a zero accumulator, read at (r, c): sums over the contracted axis -/

theorem lhs66_0 (i : S4096x128.Idx) (q : dot_S4096x66_S66x128_S4096x128_1_0_0_1_n_n.contr.Idx) :
    (dot_S4096x66_S66x128_S4096x128_1_0_0_1_n_n.lhsIdx i q 0).val = (i 0).val := by
  unfold DotDims.lhsIdx
  rw [dif_neg (show ¬(0 : Fin S4096x66.rank) ∈ dot_S4096x66_S66x128_S4096x128_1_0_0_1_n_n.lhsBatch by decide), dif_pos (show (0 : Fin S4096x66.rank) ∈ dot_S4096x66_S66x128_S4096x128_1_0_0_1_n_n.lhsNonContracting by decide)]
  rfl
theorem lhs66_1 (i : S4096x128.Idx) (q : dot_S4096x66_S66x128_S4096x128_1_0_0_1_n_n.contr.Idx) :
    (dot_S4096x66_S66x128_S4096x128_1_0_0_1_n_n.lhsIdx i q 1).val = (q ⟨0, by decide⟩).val :=
  dot_S4096x66_S66x128_S4096x128_1_0_0_1_n_n.lhsIdx_val_of_single rfl i q
theorem rhs66_0 (i : S4096x128.Idx) (q : dot_S4096x66_S66x128_S4096x128_1_0_0_1_n_n.contr.Idx) :
    (dot_S4096x66_S66x128_S4096x128_1_0_0_1_n_n.rhsIdx i q 0).val = (q ⟨0, by decide⟩).val :=
  dot_S4096x66_S66x128_S4096x128_1_0_0_1_n_n.rhsIdx_val_of_single rfl i q
theorem rhs66_1 (i : S4096x128.Idx) (q : dot_S4096x66_S66x128_S4096x128_1_0_0_1_n_n.contr.Idx) :
    (dot_S4096x66_S66x128_S4096x128_1_0_0_1_n_n.rhsIdx i q 1).val = (i 1).val := by
  unfold DotDims.rhsIdx
  rw [dif_neg (show ¬(1 : Fin S66x128.rank) ∈ dot_S4096x66_S66x128_S4096x128_1_0_0_1_n_n.rhsBatch by decide), dif_pos (show (1 : Fin S66x128.rank) ∈ dot_S4096x66_S66x128_S4096x128_1_0_0_1_n_n.rhsNonContracting by decide)]
  rfl

/-- [4096,66] times [66,128] at (r, c). -/
theorem mm66_apply (A : FVec Ideal S4096x66 .bf16) (B : FVec Ideal S66x128 .bf16) (r : Fin 4096) (c : Fin 128) :
    matmul dot_S4096x66_S66x128_S4096x128_1_0_0_1_n_n none A B (constant (F := Ideal) S4096x128 .f32 0x00000000#32) (ix2 r c)
      = ∑ k : Fin 66, A (ix2 r k) * B (ix2 k c) := by
  simp only [matmul]
  rw [Ideal.matmul_constant_zero_apply, ← Equiv.sum_comp (ValueIdx.contrEquiv1 dot_S4096x66_S66x128_S4096x128_1_0_0_1_n_n 66 rfl rfl).symm]
  refine Finset.sum_congr rfl fun k _ => ?_
  have hk := ValueIdx.contrEquiv1_symm_val dot_S4096x66_S66x128_S4096x128_1_0_0_1_n_n 66 rfl rfl k
  have el : dot_S4096x66_S66x128_S4096x128_1_0_0_1_n_n.lhsIdx (ix2 r c) ((ValueIdx.contrEquiv1 dot_S4096x66_S66x128_S4096x128_1_0_0_1_n_n 66 rfl rfl).symm k) = ix2 r k := funext fun a => Fin.ext (by
    match a with
    | ⟨0, _⟩ => exact lhs66_0 _ _
    | ⟨1, _⟩ => exact (lhs66_1 _ _).trans hk)
  have er : dot_S4096x66_S66x128_S4096x128_1_0_0_1_n_n.rhsIdx (ix2 r c) ((ValueIdx.contrEquiv1 dot_S4096x66_S66x128_S4096x128_1_0_0_1_n_n 66 rfl rfl).symm k) = ix2 k c := funext fun a => Fin.ext (by
    match a with
    | ⟨0, _⟩ => exact (rhs66_0 _ _).trans hk
    | ⟨1, _⟩ => exact rhs66_1 _ _)
  rw [el, er]

theorem lhs42_0 (i : S4096x128.Idx) (q : dot_S4096x42_S42x128_S4096x128_1_0_0_1_n_n.contr.Idx) :
    (dot_S4096x42_S42x128_S4096x128_1_0_0_1_n_n.lhsIdx i q 0).val = (i 0).val := by
  unfold DotDims.lhsIdx
  rw [dif_neg (show ¬(0 : Fin S4096x42.rank) ∈ dot_S4096x42_S42x128_S4096x128_1_0_0_1_n_n.lhsBatch by decide), dif_pos (show (0 : Fin S4096x42.rank) ∈ dot_S4096x42_S42x128_S4096x128_1_0_0_1_n_n.lhsNonContracting by decide)]
  rfl
theorem lhs42_1 (i : S4096x128.Idx) (q : dot_S4096x42_S42x128_S4096x128_1_0_0_1_n_n.contr.Idx) :
    (dot_S4096x42_S42x128_S4096x128_1_0_0_1_n_n.lhsIdx i q 1).val = (q ⟨0, by decide⟩).val :=
  dot_S4096x42_S42x128_S4096x128_1_0_0_1_n_n.lhsIdx_val_of_single rfl i q
theorem rhs42_0 (i : S4096x128.Idx) (q : dot_S4096x42_S42x128_S4096x128_1_0_0_1_n_n.contr.Idx) :
    (dot_S4096x42_S42x128_S4096x128_1_0_0_1_n_n.rhsIdx i q 0).val = (q ⟨0, by decide⟩).val :=
  dot_S4096x42_S42x128_S4096x128_1_0_0_1_n_n.rhsIdx_val_of_single rfl i q
theorem rhs42_1 (i : S4096x128.Idx) (q : dot_S4096x42_S42x128_S4096x128_1_0_0_1_n_n.contr.Idx) :
    (dot_S4096x42_S42x128_S4096x128_1_0_0_1_n_n.rhsIdx i q 1).val = (i 1).val := by
  unfold DotDims.rhsIdx
  rw [dif_neg (show ¬(1 : Fin S42x128.rank) ∈ dot_S4096x42_S42x128_S4096x128_1_0_0_1_n_n.rhsBatch by decide), dif_pos (show (1 : Fin S42x128.rank) ∈ dot_S4096x42_S42x128_S4096x128_1_0_0_1_n_n.rhsNonContracting by decide)]
  rfl

/-- [4096,42] times [42,128] at (r, c). -/
theorem mm42_apply (A : FVec Ideal S4096x42 .bf16) (B : FVec Ideal S42x128 .bf16) (r : Fin 4096) (c : Fin 128) :
    matmul dot_S4096x42_S42x128_S4096x128_1_0_0_1_n_n none A B (constant (F := Ideal) S4096x128 .f32 0x00000000#32) (ix2 r c)
      = ∑ k : Fin 42, A (ix2 r k) * B (ix2 k c) := by
  simp only [matmul]
  rw [Ideal.matmul_constant_zero_apply, ← Equiv.sum_comp (ValueIdx.contrEquiv1 dot_S4096x42_S42x128_S4096x128_1_0_0_1_n_n 42 rfl rfl).symm]
  refine Finset.sum_congr rfl fun k _ => ?_
  have hk := ValueIdx.contrEquiv1_symm_val dot_S4096x42_S42x128_S4096x128_1_0_0_1_n_n 42 rfl rfl k
  have el : dot_S4096x42_S42x128_S4096x128_1_0_0_1_n_n.lhsIdx (ix2 r c) ((ValueIdx.contrEquiv1 dot_S4096x42_S42x128_S4096x128_1_0_0_1_n_n 42 rfl rfl).symm k) = ix2 r k := funext fun a => Fin.ext (by
    match a with
    | ⟨0, _⟩ => exact lhs42_0 _ _
    | ⟨1, _⟩ => exact (lhs42_1 _ _).trans hk)
  have er : dot_S4096x42_S42x128_S4096x128_1_0_0_1_n_n.rhsIdx (ix2 r c) ((ValueIdx.contrEquiv1 dot_S4096x42_S42x128_S4096x128_1_0_0_1_n_n 42 rfl rfl).symm k) = ix2 k c := funext fun a => Fin.ext (by
    match a with
    | ⟨0, _⟩ => exact (rhs42_0 _ _).trans hk
    | ⟨1, _⟩ => exact rhs42_1 _ _)
  rw [el, er]

theorem lhs6_0 (i : S4096x128.Idx) (q : dot_S4096x6_S6x128_S4096x128_1_0_0_1_n_n.contr.Idx) :
    (dot_S4096x6_S6x128_S4096x128_1_0_0_1_n_n.lhsIdx i q 0).val = (i 0).val := by
  unfold DotDims.lhsIdx
  rw [dif_neg (show ¬(0 : Fin S4096x6.rank) ∈ dot_S4096x6_S6x128_S4096x128_1_0_0_1_n_n.lhsBatch by decide), dif_pos (show (0 : Fin S4096x6.rank) ∈ dot_S4096x6_S6x128_S4096x128_1_0_0_1_n_n.lhsNonContracting by decide)]
  rfl
theorem lhs6_1 (i : S4096x128.Idx) (q : dot_S4096x6_S6x128_S4096x128_1_0_0_1_n_n.contr.Idx) :
    (dot_S4096x6_S6x128_S4096x128_1_0_0_1_n_n.lhsIdx i q 1).val = (q ⟨0, by decide⟩).val :=
  dot_S4096x6_S6x128_S4096x128_1_0_0_1_n_n.lhsIdx_val_of_single rfl i q
theorem rhs6_0 (i : S4096x128.Idx) (q : dot_S4096x6_S6x128_S4096x128_1_0_0_1_n_n.contr.Idx) :
    (dot_S4096x6_S6x128_S4096x128_1_0_0_1_n_n.rhsIdx i q 0).val = (q ⟨0, by decide⟩).val :=
  dot_S4096x6_S6x128_S4096x128_1_0_0_1_n_n.rhsIdx_val_of_single rfl i q
theorem rhs6_1 (i : S4096x128.Idx) (q : dot_S4096x6_S6x128_S4096x128_1_0_0_1_n_n.contr.Idx) :
    (dot_S4096x6_S6x128_S4096x128_1_0_0_1_n_n.rhsIdx i q 1).val = (i 1).val := by
  unfold DotDims.rhsIdx
  rw [dif_neg (show ¬(1 : Fin S6x128.rank) ∈ dot_S4096x6_S6x128_S4096x128_1_0_0_1_n_n.rhsBatch by decide), dif_pos (show (1 : Fin S6x128.rank) ∈ dot_S4096x6_S6x128_S4096x128_1_0_0_1_n_n.rhsNonContracting by decide)]
  rfl

/-- [4096,6] times [6,128] at (r, c). -/
theorem mm6_apply (A : FVec Ideal S4096x6 .bf16) (B : FVec Ideal S6x128 .bf16) (r : Fin 4096) (c : Fin 128) :
    matmul dot_S4096x6_S6x128_S4096x128_1_0_0_1_n_n none A B (constant (F := Ideal) S4096x128 .f32 0x00000000#32) (ix2 r c)
      = ∑ k : Fin 6, A (ix2 r k) * B (ix2 k c) := by
  simp only [matmul]
  rw [Ideal.matmul_constant_zero_apply, ← Equiv.sum_comp (ValueIdx.contrEquiv1 dot_S4096x6_S6x128_S4096x128_1_0_0_1_n_n 6 rfl rfl).symm]
  refine Finset.sum_congr rfl fun k _ => ?_
  have hk := ValueIdx.contrEquiv1_symm_val dot_S4096x6_S6x128_S4096x128_1_0_0_1_n_n 6 rfl rfl k
  have el : dot_S4096x6_S6x128_S4096x128_1_0_0_1_n_n.lhsIdx (ix2 r c) ((ValueIdx.contrEquiv1 dot_S4096x6_S6x128_S4096x128_1_0_0_1_n_n 6 rfl rfl).symm k) = ix2 r k := funext fun a => Fin.ext (by
    match a with
    | ⟨0, _⟩ => exact lhs6_0 _ _
    | ⟨1, _⟩ => exact (lhs6_1 _ _).trans hk)
  have er : dot_S4096x6_S6x128_S4096x128_1_0_0_1_n_n.rhsIdx (ix2 r c) ((ValueIdx.contrEquiv1 dot_S4096x6_S6x128_S4096x128_1_0_0_1_n_n 6 rfl rfl).symm k) = ix2 k c := funext fun a => Fin.ext (by
    match a with
    | ⟨0, _⟩ => exact (rhs6_0 _ _).trans hk
    | ⟨1, _⟩ => exact rhs6_1 _ _)
  rw [el, er]

/-! ## The sum of the first two products: the position one-hot against rows 0–65, the features against rows 66–107 -/

theorem pay8_apply (v20 : IVec S64x64 1) (v36 v37 : IVec S64x64 32) (x9 : Vec Ideal S66x128 .f32) (x8 : Vec Ideal S1x64x64x42 .f32)
    (x10 : Vec Ideal S42x128 .f32) (p q : Fin 64) (c : Fin 128) :
    k0_pay8 (F := Ideal) v20 v36 v37 x9 x8 x10 (ix2 (row p q) c)
      = ∑ k : Fin 66, (((IntOp.cmpi .eq (Scalar.select (v20 (ix2 p q)) (v36 (ix2 p q)) (v37 (ix2 p q))) (BitVec.ofNat 32 k.val)).toNat : ℝ) : EReal) * x9 (ix2 k c)
        + ∑ k : Fin 42, x8 (ix4 (0 : Fin 1) p q k) * x10 (ix2 k c) := by
  unfold k0_pay8
  show matmul dot_S4096x66_S66x128_S4096x128_1_0_0_1_n_n none _ _ _ (ix2 (row p q) c)
      + matmul dot_S4096x42_S42x128_S4096x128_1_0_0_1_n_n none _ _ _ (ix2 (row p q) c) = _
  rw [mm66_apply, mm42_apply]
  congr 1
  · refine Finset.sum_congr rfl fun k _ => ?_
    refine congrArg₂ (· * ·) ((hotRows_apply _ _ _ _ _ _ _ p q k).trans rfl) ?_
    show shapeCast S66x128 x9 _ (ix2 k c) = _
    rw [shapeCast_self]
  · refine Finset.sum_congr rfl fun k _ => ?_
    refine congrArg₂ (· * ·) ?_ ?_
    · refine (flat_apply _ _ p q k).trans ?_
      show shapeCast S64x64x42 x8 _ (ix3 p q k) = _
      exact shapeCast_1abc_abc_apply x8 _ p q k
    · show shapeCast S42x128 x10 _ (ix2 k c) = _
      rw [shapeCast_self]

/-! ## The chain one-hot rows -/

theorem pay9_apply (x1 x5 : Vec Ideal S64x1 .i32) (v20 v25 : IVec S64x64 1) (p q : Fin 64) (k : Fin 6) :
    k0_pay9 (F := Ideal) (k0_pay2 x1) (k0_pay3 x5) v20 v25 (ix2 (row p q) k)
      = (((IntOp.cmpi .eq (Scalar.select (IntOp.ori (v20 (ix2 p q)) (IntOp.xori (v25 (ix2 p q)) 1#1)) 5#32
            (IntOp.minsi 4#32 (IntOp.maxsi 0#32 (IntOp.addi (IntOp.subi (x1 (ix2 p (0 : Fin 1))) (x5 (ix2 q (0 : Fin 1)))) 2#32))))
          (BitVec.ofNat 32 k.val)).toNat : ℝ) : EReal) := by
  unfold k0_pay9 k0_pay2 k0_pay3
  refine (hotRows_apply _ _ _ _ _ _ _ p q k).trans ?_
  show (((IntOp.cmpi .eq (Scalar.select (IntOp.ori (v20 (ix2 p q)) (IntOp.xori (v25 (ix2 p q)) 1#1)) 5#32
            (IntOp.minsi 4#32 (IntOp.maxsi 0#32 (IntOp.addi (IntOp.subi (broadcastTo S64x64 _ _ (ix2 p q)) (broadcastTo S64x64 _ _ (ix2 p q))) 2#32))))
          (BitVec.ofNat 32 k.val)).toNat : ℝ) : EReal) = _
  rw [rowRep_apply, colRep_apply]

/-! ## The stored tile: the two products, plus the chain one-hot against rows 109–114, plus the same-entity bit times row 108 -/

section Layout4
variable {α : Type}

/-- A [4096,1] column repeated along 128 columns reads, at (r, c), the column's entry r. -/
theorem colBroad_apply (x : S4096x1.Idx → α) (h : S4096x1.Broadcasts S4096x128) (r : Fin 4096) (c : Fin 128) :
    broadcastTo S4096x128 x h (ix2 r c) = x (ix2 r (0 : Fin 1)) :=
  broadcastTo_apply x h _ _ fun a => match a with
    | ⟨0, _⟩ => rfl
    | ⟨1, _⟩ => rfl

/-- A [64,64] array viewed as a [4096,1] column reads, at (row p q, u), the entry (p, q). -/
theorem flat1_apply (x : S64x64.Idx → α) (h : S64x64.ShapeCasts S4096x1) (p q : Fin 64) (u : Fin 1) :
    shapeCast S4096x1 x h (ix2 (row p q) u) = x (ix2 p q) :=
  shapeCast_apply x h _ _ (by
    have hu : u.val = 0 := by omega
    rw [Shape.rowMajor_val_two, Shape.rowMajor_val_two]
    show p.val * 64 + q.val = (p.val * 64 + q.val) * 1 + u.val
    omega)

end Layout4

theorem pay1_apply (v25 : IVec S64x64 1) (v74 : FVec Ideal S4096x128 .f32) (v82 : FVec Ideal S4096x6 .bf16)
    (x12 : Vec Ideal S6x128 .f32) (x11 : Vec Ideal S1x128 .f32) (z : Fin 1) (p q : Fin 64) (c : Fin 128) :
    k0_pay1 (F := Ideal) v25 v74 v82 x12 x11 (ix4 z p q c)
      = (v74 (ix2 (row p q) c) + ∑ k : Fin 6, v82 (ix2 (row p q) k) * x12 (ix2 k c))
        + (((v25 (ix2 p q)).toNat : ℝ) : EReal) * x11 (ix2 (0 : Fin 1) c) := by
  unfold k0_pay1
  refine (shapeCast_abc_1abc_apply _ _ z p q c).trans ?_
  refine (unflat_apply _ _ p q c).trans ?_
  show (v74 (ix2 (row p q) c) + matmul dot_S4096x6_S6x128_S4096x128_1_0_0_1_n_n none v82 _ _ (ix2 (row p q) c))
      + (broadcastTo S4096x128 _ _ (ix2 (row p q) c) * broadcastTo S4096x128 _ _ (ix2 (row p q) c)) = _
  rw [mm6_apply]
  congr 1
  · congr 1
    refine Finset.sum_congr rfl fun k _ => ?_
    congr 1
    show shapeCast S6x128 x12 _ (ix2 k c) = _
    rw [shapeCast_self]
  · refine congrArg₂ (· * ·) ?_ ?_
    · refine (colBroad_apply _ _ (row p q) c).trans ?_
      refine (flat1_apply _ _ p q (0 : Fin 1)).trans ?_
      exact sitofp_bit _
    · refine (broadcastTo_1b_ab_apply _ _ (row p q) c).trans ?_
      rw [shapeCast_shapeCast]

/-! ## The stored tile is the specification's tile function -/

theorem pay_eq_Gblk (x0 x1 x2 x3 x4 x5 x6 x7 : Vec Ideal S64x1 .i32) (x8 : Vec Ideal S1x64x64x42 .f32) (x9 : Vec Ideal S66x128 .f32) (x10 : Vec Ideal S42x128 .f32) (x11 : Vec Ideal S1x128 .f32) (x12 : Vec Ideal S6x128 .f32) :
    k0_pay1 (F := Ideal) (k0_pay5 x2 x6) (k0_pay8 (k0_pay4 x0 x4) (k0_pay6 x3 x7) k0_pay7 x9 x8 x10) (k0_pay9 (F := Ideal) (k0_pay2 x1) (k0_pay3 x5) (k0_pay4 x0 x4) (k0_pay5 x2 x6)) x12 x11
      = Cert.RelPos.Gblk x0 x1 x2 x3 x4 x5 x6 x7 x8 x9 x10 x11 x12 := by
  funext y
  obtain ⟨z, p, q, c, rfl⟩ : ∃ (z : Fin 1) (p q : Fin 64) (c : Fin 128), y = ix4 z p q c := ⟨y 0, y 1, y 2, y 3, eq_ix4 y⟩
  rw [pay1_apply, pay8_apply]
  simp only [pay9_apply, pay4_apply, pay5_apply, pay6_apply, pay7_apply]
  rfl

end Cert.KernelIdeal.Pay

end
-- ==== Proof.KernelIdealValue.lean ====
/-
  The kernel's result array after the run is the specification of its arguments.

  What grid point t writes back is the kernel body's one store of the tile's thirteen input blocks, which is the
  tile function of those blocks, which is tile t of the whole result read through the output window's block.
  The 16 x 16 tiles of [1, 64, 64, 128] cover the [1, 1024, 1024, 128] result (the tile holding row r and column s
  is (r / 64, s / 64)), so the array ends holding the whole function.
-/
import proofs.«102805_j43044162241209_1_alg».proof.Proof.KernelIdealBlocks
import proofs.«102805_j43044162241209_1_alg».proof.Proof.KernelIdealPayload

set_option maxRecDepth 16384

noncomputable section

namespace Cert.KernelIdeal.Val

open Cert.KernelIdeal Cert.KernelIdeal.Gen Cert.KernelIdeal.Frm Cert.RelPos
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What point t writes back is tile t of the specification of the arguments. -/
theorem flushed_eq (c : Dev nD) (t : Fin cfg0.N) :
    (dats m 0 c).flushed 13 t = ((cfg0.win 13).blk t).view.read (Elt Ideal) (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show (cfg0.win 13).cut (grid0.coords t) ((dats m 0 c).after 13 t) = _
  rw [after_13]
  unfold outBlk
  rw [View.canon_unit_zero hz4]
  simp only [View.ld_unit_zero (S := S64x1) hz2, View.ld_unit_zero (S := S1x64x64x42) hz4, View.ld_unit_zero (S := S66x128) hz2,
    View.ld_unit_zero (S := S42x128) hz2, View.ld_unit_zero (S := S1x128) hz2, View.ld_unit_zero (S := S6x128) hz2]
  rw [Cert.KernelIdeal.Pay.pay_eq_Gblk]
  exact tile_eq m c t

/-- An index of the result is in point t's block iff each coordinate is in the block's range on its axis. -/
theorem mem_blk (t : Fin cfg0.N) (i : S1x1024x1024x128.Idx) :
    i ∈ ((cfg0.win 13).blk t).view.set ↔ ∀ a : Fin 4, win0_13.index t a * S1x64x64x128.size a ≤ (i a).val ∧ (i a).val < win0_13.index t a * S1x64x64x128.size a + S1x64x64x128.size a := by
  show i ∈ ((View.whole main_v12).slice (win0_13.rect t)).set ↔ _
  rw [View.set_slice_whole, Rect.mem_set_unit]
  exact Iff.rfl

/-- Every index of the result is in some point's block: the tile of its row and its column. -/
theorem cover (i : S1x1024x1024x128.Idx) : ∃ t : Fin cfg0.N, (cfg0.win 13).flush t = true ∧ i ∈ ((cfg0.win 13).blk t).view.set := by
  have h0 : (i 0).val < 1 := (i 0).isLt
  have h1 : (i 1).val < 1024 := (i 1).isLt
  have h2 : (i 2).val < 1024 := (i 2).isLt
  have h3 : (i 3).val < 128 := (i 3).isLt
  obtain ⟨t, ht⟩ := idx_onto ⟨(i 1).val / 64, by omega⟩ ⟨(i 2).val / 64, by omega⟩
  have q0 : win0_13.index t (0 : Fin 4) = 0 := congrFun ht 0
  have q1 : win0_13.index t (1 : Fin 4) = (i 1).val / 64 := congrFun ht 1
  have q2 : win0_13.index t (2 : Fin 4) = (i 2).val / 64 := congrFun ht 2
  have q3 : win0_13.index t (3 : Fin 4) = 0 := congrFun ht 3
  refine ⟨t, flush0_13 t, ?_⟩
  rw [mem_blk]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 64 ≤ (i 1).val ∧ (i 1).val < win0_13.index t (1 : Fin 4) * 64 + 64; omega
  | ⟨2, _⟩ => show win0_13.index t (2 : Fin 4) * 64 ≤ (i 2).val ∧ (i 2).val < win0_13.index t (2 : Fin 4) * 64 + 64; omega
  | ⟨3, _⟩ => show win0_13.index t (3 : Fin 4) * 128 ≤ (i 3).val ∧ (i 3).val < win0_13.index t (3 : Fin 4) * 128 + 128; omega

/-- The result array after the run is the specification of the arguments. -/
theorem final (c : Dev nD) : (dats m 0 c).arrAt 13 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 13 (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (fun t _ => flushed_eq m c t) cover

/-- The kernel's run: it terminates with the result at the specification of the arguments, the arguments unchanged. -/
theorem run : θ_run defs (onTc (τ := τ) (main (F := Ideal))) ⟨m, fun _ => 0, ρ⟩ fun r => ∀ c : Dev nD,
      r.2.mem ((c : Thread nD τ).loc main_v12) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Val

end
-- ==== Proof.RefValue.lean ====
/-
  The reference program computes the specification `G`.

  The reference's last stage multiplies the 115-wide feature row of a token pair by the weight matrix: at an output
  index it is the sum over k < 115 of feature k times weight (k, c). The feature row is four pieces laid side by side
  (66 + 42 + 1 + 6 wide): the one-hot of the position bin, the pair's own 42 features, the same-entity indicator, and
  the one-hot of the chain bin. So the sum is cut at those four pieces, each coordinate of the joined row is read from
  the piece that holds it, and each piece's entry is the matching factor in `elem`. Addition of extended reals is
  commutative and associative, which is all the regrouping needs.
-/
import proofs.«102805_j43044162241209_1_alg».proof.Proof.Gen.ReferenceIdeal.Read
import proofs.«102805_j43044162241209_1_alg».proof.Proof.Spec
import Mathlib.Algebra.BigOperators.Fin

noncomputable section

namespace Cert.RelPos.Ref

open Cert.ReferenceIdeal Cert.ReferenceIdeal.Read Idealize.ShloMosaic Idealize.ShloMosaic.ValueIdx

/-! ## The sum of 115 terms, cut at 66, 108 and 109 -/

/-- A sum over 115 terms is its first 66, plus the next 42, plus the last 6, plus the one term at position 108
    (in that grouping: the single term last). -/
theorem sum_cut {M : Type*} [AddCommMonoid M] (f : Fin 115 → M) :
    ∑ k : Fin 115, f k =
      ((∑ k : Fin 66, f ⟨k.val, by omega⟩ + ∑ k : Fin 42, f ⟨66 + k.val, by omega⟩)
        + ∑ k : Fin 6, f ⟨109 + k.val, by omega⟩) + f ⟨108, by omega⟩ := by
  -- 115 = 66 + 49, 49 = 42 + 7, 7 = 1 + 6
  have e1 : ∑ k : Fin 115, f k = ∑ k : Fin 66, f (Fin.castAdd 49 k) + ∑ k : Fin 49, f (Fin.natAdd 66 k) :=
    Fin.sum_univ_add (a := 66) (b := 49) f
  have e2 : ∑ k : Fin 49, f (Fin.natAdd 66 k)
      = ∑ k : Fin 42, f (Fin.natAdd 66 (Fin.castAdd 7 k)) + ∑ k : Fin 7, f (Fin.natAdd 66 (Fin.natAdd 42 k)) :=
    Fin.sum_univ_add (a := 42) (b := 7) fun k => f (Fin.natAdd 66 k)
  have e3 : ∑ k : Fin 7, f (Fin.natAdd 66 (Fin.natAdd 42 k))
      = f (Fin.natAdd 66 (Fin.natAdd 42 (0 : Fin 7))) + ∑ k : Fin 6, f (Fin.natAdd 66 (Fin.natAdd 42 k.succ)) :=
    Fin.sum_univ_succ (n := 6) fun k : Fin 7 => f (Fin.natAdd 66 (Fin.natAdd 42 k))
  -- the last stretch starts at 66 + 42 + 1 = 109
  have h3 : ∀ k : Fin 6, f (Fin.natAdd 66 (Fin.natAdd 42 k.succ)) = f ⟨109 + k.val, by omega⟩ := fun k =>
    congrArg f (Fin.ext (by show 66 + (42 + (k.val + 1)) = 109 + k.val; omega))
  have assoc : ∀ A B c D : M, A + (B + (c + D)) = ((A + B) + D) + c := fun A B c D => by
    rw [add_comm c D, ← add_assoc, ← add_assoc]
  rw [e1, e2, e3]
  simp only [h3]
  exact assoc _ _ _ _

/-! ## One-bit words -/

/-- On a one-bit word, complement is exclusive-or with 1. -/
theorem not_eq_xor_one (x : BitVec 1) : ~~~x = IntOp.xori x 1#1 := by
  rcases BitVec.eq_zero_or_eq_one x with h | h <;> subst h <;> decide

section Stages

variable (x0 : (⟨S1x1024x1024x42, .f32⟩ : BufTy).Contents (Elt Ideal))
  (x1 : (⟨S115x128, .f32⟩ : BufTy).Contents (Elt Ideal))
  (x2 x3 x4 x5 : (⟨S1x1024, .i32⟩ : BufTy).Contents (Elt Ideal))

/-! ## The pairwise stages at a pair (b, c): row token b, column token c

Each id array is broadcast once along rows and once along columns; at the pair (b, c) the two broadcasts read the
array at b and at c. -/

/-- Same chain: the chain ids of b and c compared. -/
theorem sameChain_at (b c : Fin 1024) :
    val_main_v4 (F := Ideal) x2 (ix3 0 b c) = same (x2 (ix2 0 b)) (x2 (ix2 0 c)) := by
  have e1 : idx_main_v0 (idx_main_v2 (ix3 (0 : Fin 1) b c)) = ix2 0 b := funext fun t => Fin.ext (by match t with | ⟨0, _⟩ => rfl | ⟨1, _⟩ => rfl)
  have e2 : idx_main_v1 (idx_main_v3 (ix3 (0 : Fin 1) b c)) = ix2 0 c := funext fun t => Fin.ext (by match t with | ⟨0, _⟩ => rfl | ⟨1, _⟩ => rfl)
  rw [val_main_v4_apply, val_main_v2_apply, val_main_v0_apply, val_main_v3_apply, val_main_v1_apply, e1, e2]
  rfl

/-- Same entity: the entity ids of b and c compared. -/
theorem sameEntity_at (b c : Fin 1024) :
    val_main_v9 (F := Ideal) x4 (ix3 0 b c) = same (x4 (ix2 0 b)) (x4 (ix2 0 c)) := by
  have e1 : idx_main_v5 (idx_main_v7 (ix3 (0 : Fin 1) b c)) = ix2 0 b := funext fun t => Fin.ext (by match t with | ⟨0, _⟩ => rfl | ⟨1, _⟩ => rfl)
  have e2 : idx_main_v6 (idx_main_v8 (ix3 (0 : Fin 1) b c)) = ix2 0 c := funext fun t => Fin.ext (by match t with | ⟨0, _⟩ => rfl | ⟨1, _⟩ => rfl)
  rw [val_main_v9_apply, val_main_v7_apply, val_main_v5_apply, val_main_v8_apply, val_main_v6_apply, e1, e2]
  rfl

/-- The residue offset of the pair plus 32, clipped to [0, 64]. -/
theorem clipRes_at (b c : Fin 1024) :
    val_main_v17 (F := Ideal) x5 (ix3 0 b c) = clipOff (x5 (ix2 0 b)) (x5 (ix2 0 c)) 32#32 64#32 := by
  have e1 : idx_main_v10 (idx_main_v12 (ix3 (0 : Fin 1) b c)) = ix2 0 b := funext fun t => Fin.ext (by match t with | ⟨0, _⟩ => rfl | ⟨1, _⟩ => rfl)
  have e2 : idx_main_v11 (idx_main_v13 (ix3 (0 : Fin 1) b c)) = ix2 0 c := funext fun t => Fin.ext (by match t with | ⟨0, _⟩ => rfl | ⟨1, _⟩ => rfl)
  rw [val_main_v17_apply, val_main_call0_v4_apply, val_main_call0_v3_apply, val_main_c_1_apply,
    val_main_call0_v2_apply, val_main_call0_v1_apply, val_main_call0_v0_apply, val_main_c_0_apply,
    val_main_v16_apply, val_main_v15_apply, val_main_c_apply, val_main_v14_apply,
    val_main_v12_apply, val_main_v10_apply, val_main_v13_apply, val_main_v11_apply, e1, e2]
  rfl

/-- The copy offset of the pair plus 2, clipped to [0, 4]. -/
theorem clipChain_at (b c : Fin 1024) :
    val_main_v27 (F := Ideal) x3 (ix3 0 b c) = clipOff (x3 (ix2 0 b)) (x3 (ix2 0 c)) 2#32 4#32 := by
  have e1 : idx_main_v20 (idx_main_v22 (ix3 (0 : Fin 1) b c)) = ix2 0 b := funext fun t => Fin.ext (by match t with | ⟨0, _⟩ => rfl | ⟨1, _⟩ => rfl)
  have e2 : idx_main_v21 (idx_main_v23 (ix3 (0 : Fin 1) b c)) = ix2 0 c := funext fun t => Fin.ext (by match t with | ⟨0, _⟩ => rfl | ⟨1, _⟩ => rfl)
  rw [val_main_v27_apply, val_main_call3_v4_apply, val_main_call3_v3_apply, val_main_c_5_apply,
    val_main_call3_v2_apply, val_main_call3_v1_apply, val_main_call3_v0_apply, val_main_c_4_apply,
    val_main_v26_apply, val_main_v25_apply, val_main_c_3_apply, val_main_v24_apply,
    val_main_v22_apply, val_main_v20_apply, val_main_v23_apply, val_main_v21_apply, e1, e2]
  rfl

/-- The position bin: the clipped residue offset on one chain, 65 across chains. -/
theorem posBin_at (b c : Fin 1024) :
    val_main_v18 (F := Ideal) x2 x5 (ix3 0 b c)
      = posBin (x2 (ix2 0 b)) (x2 (ix2 0 c)) (x5 (ix2 0 b)) (x5 (ix2 0 c)) := by
  rw [val_main_v18_apply, sameChain_at, clipRes_at, val_main_call1_v1_apply, val_main_call1_v0_apply,
    val_main_c_2_apply]
  rfl

/-- The chain bin: 5 on one chain or across entities, else the clipped copy offset. -/
theorem chainBin_at (b c : Fin 1024) :
    val_main_v30 (F := Ideal) x2 x3 x4 (ix3 0 b c)
      = chainBin (x2 (ix2 0 b)) (x2 (ix2 0 c)) (x3 (ix2 0 b)) (x3 (ix2 0 c)) (x4 (ix2 0 b)) (x4 (ix2 0 c)) := by
  rw [val_main_v30_apply, val_main_v29_apply, sameChain_at, val_main_v28_apply, sameEntity_at, not_eq_xor_one,
    val_main_call4_v1_apply, val_main_call4_v0_apply, val_main_c_6_apply, clipChain_at]
  rfl

/-! ## The four pieces of the feature row at a pair -/

/-- Entry k of the one-hot of the position bin. -/
theorem onehotPos_at (b c : Fin 1024) (k : Fin 66) :
    val_main_v19 (F := Ideal) x2 x5 (ix4 0 b c k)
      = hot (posBin (x2 (ix2 0 b)) (x2 (ix2 0 c)) (x5 (ix2 0 b)) (x5 (ix2 0 c))) k.val := by
  have e1 : idx_main_call2_v0 (idx_main_call2_v2 (ix4 (0 : Fin 1) b c k)) = ix3 0 b c := funext fun t => Fin.ext (by match t with | ⟨0, _⟩ => rfl | ⟨1, _⟩ => rfl | ⟨2, _⟩ => rfl)
  rw [val_main_v19_apply, val_main_call2_v4_apply, val_main_call2_v2_apply, val_main_call2_v0_apply, e1, posBin_at,
    val_main_call2_v3_apply, val_main_call2_v1_apply]
  rfl

/-- Entry k of the one-hot of the chain bin. -/
theorem onehotChain_at (b c : Fin 1024) (k : Fin 6) :
    val_main_v31 (F := Ideal) x2 x3 x4 (ix4 0 b c k)
      = hot (chainBin (x2 (ix2 0 b)) (x2 (ix2 0 c)) (x3 (ix2 0 b)) (x3 (ix2 0 c)) (x4 (ix2 0 b)) (x4 (ix2 0 c)))
          k.val := by
  have e1 : idx_main_call5_v0 (idx_main_call5_v2 (ix4 (0 : Fin 1) b c k)) = ix3 0 b c := funext fun t => Fin.ext (by match t with | ⟨0, _⟩ => rfl | ⟨1, _⟩ => rfl | ⟨2, _⟩ => rfl)
  rw [val_main_v31_apply, val_main_call5_v4_apply, val_main_call5_v2_apply, val_main_call5_v0_apply, e1, chainBin_at,
    val_main_call5_v3_apply, val_main_call5_v1_apply]
  rfl

/-- The same-entity indicator as a number. -/
theorem entInd_at (b c : Fin 1024) :
    val_main_v33 (F := Ideal) x4 (ix4 0 b c 0) = ind (same (x4 (ix2 0 b)) (x4 (ix2 0 c))) := by
  have e1 : idx_main_v32 (ix4 (0 : Fin 1) b c (0 : Fin 1)) = ix3 0 b c := funext fun t => Fin.ext (by match t with | ⟨0, _⟩ => rfl | ⟨1, _⟩ => rfl | ⟨2, _⟩ => rfl)
  rw [val_main_v33_apply, val_main_v32_apply, e1, sameEntity_at]
  rfl

/-! ## The joined row read at a coordinate

The joined row's coordinate k lies in the piece whose span holds it: 0–65 the first, 66–107 the second, 108 the
third, 109–114 the fourth; the piece is read at k minus the widths before it. -/

theorem row_pos (b c : Fin 1024) (d : Fin 128) (k : Fin 66) (hk : k.val < 115) :
    val_main_v34 (F := Ideal) x0 x2 x3 x4 x5 (lidx_main_v35 (ix4 0 b c d) ⟨k.val, hk⟩)
      = val_main_v19 (F := Ideal) x2 x5 (ix4 0 b c k) := by
  unfold val_main_v34
  exact concatenate_apply_piece (t := S1x1024x1024x115) 3 _ _ _ 0 (by show (0 : Nat) < 4; omega) S1x1024x1024x66
    (val_main_v19 (F := Ideal) x2 x5) rfl rfl 0 rfl (ix4 0 b c k)
    (fun t ht => by
      match t with
      | ⟨0, _⟩ => rfl
      | ⟨1, _⟩ => rfl
      | ⟨2, _⟩ => rfl
      | ⟨3, _⟩ => exact (ht rfl).elim)
    (Nat.zero_add _)

theorem row_tok (b c : Fin 1024) (d : Fin 128) (k : Fin 42) (hk : 66 + k.val < 115) :
    val_main_v34 (F := Ideal) x0 x2 x3 x4 x5 (lidx_main_v35 (ix4 0 b c d) ⟨66 + k.val, hk⟩)
      = x0 (ix4 0 b c k) := by
  unfold val_main_v34
  exact concatenate_apply_piece (t := S1x1024x1024x115) 3 _ _ _ 1 (by show (1 : Nat) < 4; omega) S1x1024x1024x42
    x0 rfl rfl 66 rfl (ix4 0 b c k)
    (fun t ht => by
      match t with
      | ⟨0, _⟩ => rfl
      | ⟨1, _⟩ => rfl
      | ⟨2, _⟩ => rfl
      | ⟨3, _⟩ => exact (ht rfl).elim)
    rfl

theorem row_ent (b c : Fin 1024) (d : Fin 128) (hk : 108 < 115) :
    val_main_v34 (F := Ideal) x0 x2 x3 x4 x5 (lidx_main_v35 (ix4 0 b c d) ⟨108, hk⟩)
      = val_main_v33 (F := Ideal) x4 (ix4 0 b c 0) := by
  unfold val_main_v34
  exact concatenate_apply_piece (t := S1x1024x1024x115) 3 _ _ _ 2 (by show (2 : Nat) < 4; omega) S1x1024x1024x1
    (val_main_v33 (F := Ideal) x4) rfl rfl 108 rfl (ix4 0 b c 0)
    (fun t ht => by
      match t with
      | ⟨0, _⟩ => rfl
      | ⟨1, _⟩ => rfl
      | ⟨2, _⟩ => rfl
      | ⟨3, _⟩ => exact (ht rfl).elim)
    rfl

theorem row_chain (b c : Fin 1024) (d : Fin 128) (k : Fin 6) (hk : 109 + k.val < 115) :
    val_main_v34 (F := Ideal) x0 x2 x3 x4 x5 (lidx_main_v35 (ix4 0 b c d) ⟨109 + k.val, hk⟩)
      = val_main_v31 (F := Ideal) x2 x3 x4 (ix4 0 b c k) := by
  unfold val_main_v34
  exact concatenate_apply_piece (t := S1x1024x1024x115) 3 _ _ _ 3 (by show (3 : Nat) < 4; omega) S1x1024x1024x6
    (val_main_v31 (F := Ideal) x2 x3 x4) rfl rfl 109 rfl (ix4 0 b c k)
    (fun t ht => by
      match t with
      | ⟨0, _⟩ => rfl
      | ⟨1, _⟩ => rfl
      | ⟨2, _⟩ => rfl
      | ⟨3, _⟩ => exact (ht rfl).elim)
    rfl

/-- The weight read by term k of the product is the weight at (k, d). -/
theorem weight_at (b c : Fin 1024) (d : Fin 128) (k : Fin 115) :
    ridx_main_v35 (ix4 (0 : Fin 1) b c d) k = ix2 k d := funext fun t => Fin.ext (by match t with | ⟨0, _⟩ => rfl | ⟨1, _⟩ => rfl)

end Stages

/-! ## The reference is G -/

theorem ref_eq_G (x0 : (⟨Cert.ReferenceIdeal.S1x1024x1024x42, .f32⟩ : BufTy).Contents (Elt Ideal)) (x1 : (⟨Cert.ReferenceIdeal.S115x128, .f32⟩ : BufTy).Contents (Elt Ideal)) (x2 x3 x4 x5 : (⟨Cert.ReferenceIdeal.S1x1024, .i32⟩ : BufTy).Contents (Elt Ideal)) :
    Cert.ReferenceIdeal.Read.val_main_v35 (F := Ideal) x0 x1 x2 x3 x4 x5 = Cert.RelPos.G x0 x1 x2 x3 x4 x5 := by
  funext i
  obtain ⟨a, b, c, d, rfl⟩ : ∃ (a : Fin 1) (b c : Fin 1024) (d : Fin 128), i = ix4 a b c d :=
    ⟨i 0, i 1, i 2, i 3, eq_ix4 i⟩
  obtain rfl : a = 0 := Subsingleton.elim a 0
  -- the product's sum, cut at the four pieces; then each piece's entries and the weights they meet
  rw [val_main_v35_apply, sum_cut]
  simp only [row_pos, row_tok, row_ent, row_chain, weight_at, onehotPos_at, onehotChain_at, entInd_at]
  rfl

end Cert.RelPos.Ref

end
-- ==== Proof.lean ====
/-
  The relative-position embedder: for every pair of tokens (i, j), the one-hot of the clipped residue offset
  (66 wide, with a bin for pairs on different chains), the pair's 42 features, the same-entity indicator and the
  one-hot of the clipped chain offset (6 wide), as one row of 115 entries times the weight matrix W[115, 128].

  The reference forms the 115-wide row and multiplies. The kernel never forms it: on each 64 x 64 tile of pairs it
  adds three small matrix products (the two one-hots and the features, each against its row stretch of W) and the
  indicator times row 108 of W. Over the extended reals both are the same 115 products summed, the kernel's cut at
  66, 108 and 109 and associated differently; addition there is commutative and associative, so the two results
  agree at every index, and nothing about the inputs' finiteness is used.

  Frames: each program runs to the end and leaves its arguments unchanged. The kernel's two frames (at the word
  level and over the extended reals) are one text at any float instance: @main's host operations, then the
  pipelined region, whose id columns are each read through a query-side and a key-side window.
  The idealization rewrote no operation, so there is nothing to preserve.
-/
import proofs.«102805_j43044162241209_1_alg».proof.Defs
import proofs.«102805_j43044162241209_1_alg».proof.Proof.Gen.Kernel
import proofs.«102805_j43044162241209_1_alg».proof.Proof.Gen.KernelIdeal
import proofs.«102805_j43044162241209_1_alg».proof.Proof.Gen.ReferenceIdeal
import proofs.«102805_j43044162241209_1_alg».proof.Proof.Gen.Pre_finite_inputs
import proofs.«102805_j43044162241209_1_alg».proof.Proof.Gen.ReferenceIdeal.Run
import proofs.«102805_j43044162241209_1_alg».proof.Proof.Gen.ReferenceIdeal.Read
import proofs.«102805_j43044162241209_1_alg».proof.Proof.KernelFrame
import proofs.«102805_j43044162241209_1_alg».proof.Proof.KernelIdealFrame
import proofs.«102805_j43044162241209_1_alg».proof.Proof.KernelIdealValue
import proofs.«102805_j43044162241209_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ

theorem frame_kernelIdeal : Cert.frame_KernelIdeal := fun m ρ _ => Cert.KernelIdeal.Frm.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification of the arguments; the arguments agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.RelPos.Ref.ref_eq_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
